-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x1600000 : Shape := ⟨2, ![2, 1600000]⟩
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg0 : IVec S50000 32) (main_v33 : IVec S_ 1) : IVec S_ 1 :=
  let main_c_12 : IVec S_ 32 := constantI S_ 32 0#32
  let main_v34 : IVec S50000 32 := broadcastInDim S50000 ![] bcast_S_S50000 main_c_12
  let main_v35 : IVec S50000 1 := cmpi .sge main_arg0 main_v34
  let main_c_13 : IVec S_ 1 := constantI S_ 1 1#1
  let main_v36 : IVec S_ 1 := (fun x v => Host.reduce IntOp.andi x v reducesTo_S50000_S_d0 h_S_) main_v35 main_c_13
  let main_v37 : IVec S_ 1 := andi main_v33 main_v36
  let main_c_14 : IVec S_ 32 := constantI S_ 32 50000#32
  let main_v38 : IVec S50000 32 := broadcastInDim S50000 ![] bcast_S_S50000 main_c_14
  let main_v39 : IVec S50000 1 := cmpi .slt main_arg0 main_v38
  let main_c_15 : IVec S_ 1 := constantI S_ 1 1#1
  let main_v40 : IVec S_ 1 := (fun x v => Host.reduce IntOp.andi x v reducesTo_S50000_S_d0 h_S_) main_v39 main_c_15
  let main_v41 : IVec S_ 1 := andi main_v37 main_v40
  main_v41

def fn_part1 {F : FTy → Type} [FloatOps F] (main_arg0 : IVec S50000 32) (main_arg6 : FVec F S64 .f32) (main_arg7 : FVec F S128x64 .f32) (main_arg8 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg0 main_v33

def fn {F : FTy → Type} [FloatOps F] (main_arg0 : IVec S50000 32) (main_arg1 : IVec S2x1600000 32) (main_arg2 : FVec F S50000x128 .f32) (main_arg3 : FVec F S128x128 .f32) (main_arg4 : FVec F S128 .f32) (main_arg5 : FVec F S128x64 .f32) (main_arg6 : FVec F S64 .f32) (main_arg7 : FVec F S128x64 .f32) (main_arg8 : FVec F S64 .f32) : IVec S_ 1 :=
  let main_v0 : FVec F S50000x128 .f32 := Host.absf main_arg2
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg0 main_arg6 main_arg7 main_arg8 main_v13 main_v16
-- ==== Kernel.lean ====
abbrev S50000 : Shape := ⟨1, ![50000]⟩
abbrev S2x1600000 : Shape := ⟨2, ![2, 1600000]⟩
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x1 : Shape := ⟨2, ![50000, 1]⟩
abbrev S1 : Shape := ⟨1, ![1]⟩
abbrev S1x1 : Shape := ⟨2, ![1, 1]⟩
abbrev S5000x128 : Shape := ⟨2, ![5000, 128]⟩
abbrev S1650000x128 : Shape := ⟨2, ![1650000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 119
  | .vmem => 11
  | .smem => 0
  | _ => 0

abbrev bufTy : (tb : Table) → Fin (tcTables nBuf tb) → BufTy
  | .hbm, ⟨0, _⟩ => ⟨S50000, .i32⟩
  | .hbm, ⟨1, _⟩ => ⟨S2x1600000, .i32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S50000, .i32⟩
  | .hbm, ⟨14, _⟩ => ⟨S1650000, .i32⟩
  | .hbm, ⟨15, _⟩ => ⟨S1650000, .i32⟩
  | .hbm, ⟨16, _⟩ => ⟨S_, .f32⟩
  | .hbm, ⟨17, _⟩ => ⟨S1650000, .f32⟩
  | .hbm, ⟨18, _⟩ => ⟨S_, .f32⟩
  | .hbm, ⟨19, _⟩ => ⟨S50000, .f32⟩
  | .hbm, ⟨20, _⟩ => ⟨S1650000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S1650000, .i32⟩
  | .hbm, ⟨35, _⟩ => ⟨S1650000, .i1⟩
  | .hbm, ⟨36, _⟩ => ⟨S_, .i32⟩
  | .hbm, ⟨37, _⟩ => ⟨S1650000, .i32⟩
  | .hbm, ⟨38, _⟩ => ⟨S1650000, .i32⟩
  | .hbm, ⟨39, _⟩ => ⟨S1650000, .i32⟩
  | .hbm, ⟨40, _⟩ => ⟨S1650000x1, .i32⟩
  | .hbm, ⟨41, _⟩ => ⟨S1650000, .f32⟩
  | .hbm, ⟨42, _⟩ => ⟨S_, .i32⟩
  | .hbm, ⟨43, _⟩ => ⟨S1650000, .i32⟩
  | .hbm, ⟨44, _⟩ => ⟨S1650000, .i1⟩
  | .hbm, ⟨45, _⟩ => ⟨S_, .i32⟩
  | .hbm, ⟨46, _⟩ => ⟨S1650000, .i32⟩
  | .hbm, ⟨47, _⟩ => ⟨S1650000, .i32⟩
  | .hbm, ⟨48, _⟩ => ⟨S1650000, .i32⟩
  | .hbm, ⟨49, _⟩ => ⟨S1650000x1, .i32⟩
  | .hbm, ⟨50, _⟩ => ⟨S1650000, .f32⟩
  | .hbm, ⟨51, _⟩ => ⟨S1650000, .f32⟩
  | .hbm, ⟨52, _⟩ => ⟨S_, .i32⟩
  | .hbm, ⟨53, _⟩ => ⟨S50000, .i32⟩
  | .hbm, ⟨54, _⟩ => ⟨S50000, .i1⟩
  | .hbm, ⟨55, _⟩ => ⟨S_, .i32⟩
  | .hbm, ⟨56, _⟩ => ⟨S50000, .i32⟩
  | .hbm, ⟨57, _⟩ => ⟨S50000, .i32⟩
  | .hbm, ⟨58, _⟩ => ⟨S50000, .i32⟩
  | .hbm, ⟨59, _⟩ => ⟨S50000x1, .i32⟩
  | .hbm, ⟨60, _⟩ => ⟨S1, .i32⟩
  | .hbm, ⟨61, _⟩ => ⟨S_, .i32⟩
  | .hbm, ⟨62, _⟩ => ⟨S50000x1, .i32⟩
  | .hbm, ⟨63, _⟩ => ⟨S50000x1, .i1⟩
  | .hbm, ⟨64, _⟩ => ⟨S1x1, .i32⟩
  | .hbm, ⟨65, _⟩ => ⟨S50000x1, .i32⟩
  | .hbm, ⟨66, _⟩ => ⟨S50000x1, .i1⟩
  | .hbm, ⟨67, _⟩ => ⟨S50000x1, .i1⟩
  | .hbm, ⟨68, _⟩ => ⟨S_, .i1⟩
  | .hbm, ⟨69, _⟩ => ⟨S50000, .i1⟩
  | .hbm, ⟨70, _⟩ => ⟨S50000x128, .f32⟩
  | .hbm, ⟨71, _⟩ => ⟨S50000x128, .i1⟩
  | .hbm, ⟨72, _⟩ => ⟨S_, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S_, .i32⟩
  | .hbm, ⟨77, _⟩ => ⟨S1650000, .i32⟩
  | .hbm, ⟨78, _⟩ => ⟨S1650000, .i1⟩
  | .hbm, ⟨79, _⟩ => ⟨S_, .i32⟩
  | .hbm, ⟨80, _⟩ => ⟨S1650000, .i32⟩
  | .hbm, ⟨81, _⟩ => ⟨S1650000, .i32⟩
  | .hbm, ⟨82, _⟩ => ⟨S1650000, .i32⟩
  | .hbm, ⟨83, _⟩ => ⟨S1650000x1, .i32⟩
  | .hbm, ⟨84, _⟩ => ⟨S1650000x128, .f32⟩
  | .hbm, ⟨85, _⟩ => ⟨S1650000x1, .f32⟩
  | .hbm, ⟨86, _⟩ => ⟨S1650000x128, .f32⟩
  | .hbm, ⟨87, _⟩ => ⟨S1650000x128, .f32⟩
  | .hbm, ⟨88, _⟩ => ⟨S_, .f32⟩
  | .hbm, ⟨89, _⟩ => ⟨S50000x128, .f32⟩
  | .hbm, ⟨90, _⟩ => ⟨S1650000x1, .i32⟩
  | .hbm, ⟨91, _⟩ => ⟨S50000x128, .f32⟩
  | .hbm, ⟨92, _⟩ => ⟨S128x128, .f32⟩
  | .hbm, ⟨93, _⟩ => ⟨S1x128, .f32⟩
  | .hbm, ⟨94, _⟩ => ⟨S50000x128, .f32⟩
  | .hbm, ⟨95, _⟩ => ⟨S_, .i32⟩
  | .hbm, ⟨96, _⟩ => ⟨S1650000, .i32⟩
  | .hbm, ⟨97, _⟩ => ⟨S1650000, .i1⟩
  | .hbm, ⟨98, _⟩ => ⟨S_, .i32⟩
  | .hbm, ⟨99, _⟩ => ⟨S1650000, .i32⟩
  | .hbm, ⟨100, _⟩ => ⟨S1650000, .i32⟩
  | .hbm, ⟨101, _⟩ => ⟨S1650000, .i32⟩
  | .hbm, ⟨102, _⟩ => ⟨S1650000x1, .i32⟩
  | .hbm, ⟨103, _⟩ => ⟨S1650000x128, .f32⟩
  | .hbm, ⟨104, _⟩ => ⟨S1650000x1, .f32⟩
  | .hbm, ⟨105, _⟩ => ⟨S1650000x128, .f32⟩
  | .hbm, ⟨106, _⟩ => ⟨S1650000x128, .f32⟩
  | .hbm, ⟨107, _⟩ => ⟨S_, .f32⟩
  | .hbm, ⟨108, _⟩ => ⟨S50000x128, .f32⟩
  | .hbm, ⟨109, _⟩ => ⟨S1650000x1, .i32⟩
  | .hbm, ⟨110, _⟩ => ⟨S50000x128, .f32⟩
  | .hbm, ⟨111, _⟩ => ⟨S50000x64, .f32⟩
  | .hbm, ⟨112, _⟩ => ⟨S1x64, .f32⟩
  | .hbm, ⟨113, _⟩ => ⟨S50000x64, .f32⟩
  | .hbm, ⟨114, _⟩ => ⟨S50000x64, .f32⟩
  | .hbm, ⟨115, _⟩ => ⟨S50000x64, .f32⟩
  | .hbm, ⟨116, _⟩ => ⟨S1x64, .f32⟩
  | .hbm, ⟨117, _⟩ => ⟨S50000x64, .f32⟩
  | .hbm, ⟨118, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v32 : Ref sig .tc := ⟨.hbm, 74, rfl⟩
abbrev main_v33 : Ref sig .tc := ⟨.hbm, 75, rfl⟩
abbrev main_c_7 : Ref sig .tc := ⟨.hbm, 76, rfl⟩
abbrev main_v34 : Ref sig .tc := ⟨.hbm, 77, rfl⟩
abbrev main_v35 : Ref sig .tc := ⟨.hbm, 78, rfl⟩
abbrev main_c_8 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_cst_9 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_c_10 : Ref sig .tc := ⟨.hbm, 95, rfl⟩
abbrev main_v50 : Ref sig .tc := ⟨.hbm, 96, rfl⟩
abbrev main_v51 : Ref sig .tc := ⟨.hbm, 97, rfl⟩
abbrev main_c_11 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_cst_12 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S50000_d1 : S50000x1.ReducesTo [1] S50000
  h_S_ : 0 < S_.numel
  bcast_S50000_S50000x128_0 : S50000.BroadcastsInDim S50000x128 (![0] : Fin 1 → Fin S50000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1650000x1_S1650000x128_0_1 : S1650000x1.BroadcastsInDim S1650000x128 (![0, 1] : Fin 2 → Fin S1650000x128.rank)
  concatenates_S128x64_S128x64_S128x128_d1 : Shape.Concatenates [S128x64, S128x64] S128x128 1
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S128x128_S128x128 : S128x128.ShapeCasts S128x128
  slices_S50000x128_S50000x64_0_0 : S50000x128.Slices ![0, 0] S50000x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S50000x128_S50000x64_0_64 : S50000x128.Slices ![0, 64] S50000x64
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S50000x1_S50000x128_1_0_n_n_0_1_1128_wf : GatherDims.WF S50000x128 S50000x1 S50000x128 [1] [0] [] [0] [] 1 ![1, 128]
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf

abbrev win0_0 : Pipeline.Window sig grid0 :=
  Pipeline.Window.ofSpec (Memref.whole main_v32) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000 : Shape := ⟨1, ![50000]⟩
abbrev S2x1600000 : Shape := ⟨2, ![2, 1600000]⟩
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x1 : Shape := ⟨2, ![50000, 1]⟩
abbrev S1650000x128 : Shape := ⟨2, ![1650000, 128]⟩
abbrev S1x128 : Shape := ⟨2, ![1, 128]⟩
abbrev S50000x64 : Shape := ⟨2, ![50000, 64]⟩
abbrev S1650000x64 : Shape := ⟨2, ![1650000, 64]⟩
abbrev S1x64 : Shape := ⟨2, ![1, 64]⟩

abbrev nBuf : Space → Nat
  | .hbm => 124
  | .vmem => 0
  | .smem => 0
  | _ => 0

abbrev bufTy : (tb : Table) → Fin (tcTables nBuf tb) → BufTy
  | .hbm, ⟨0, _⟩ => ⟨S50000, .i32⟩
  | .hbm, ⟨1, _⟩ => ⟨S2x1600000, .i32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S50000, .i32⟩
  | .hbm, ⟨14, _⟩ => ⟨S1650000, .i32⟩
  | .hbm, ⟨15, _⟩ => ⟨S1650000, .i32⟩
  | .hbm, ⟨16, _⟩ => ⟨S_, .f32⟩
  | .hbm, ⟨17, _⟩ => ⟨S1650000, .f32⟩
  | .hbm, ⟨18, _⟩ => ⟨S_, .f32⟩
  | .hbm, ⟨19, _⟩ => ⟨S50000, .f32⟩
  | .hbm, ⟨20, _⟩ => ⟨S1650000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S1650000, .i32⟩
  | .hbm, ⟨35, _⟩ => ⟨S1650000, .i1⟩
  | .hbm, ⟨36, _⟩ => ⟨S_, .i32⟩
  | .hbm, ⟨37, _⟩ => ⟨S1650000, .i32⟩
  | .hbm, ⟨38, _⟩ => ⟨S1650000, .i32⟩
  | .hbm, ⟨39, _⟩ => ⟨S1650000, .i32⟩
  | .hbm, ⟨40, _⟩ => ⟨S1650000x1, .i32⟩
  | .hbm, ⟨41, _⟩ => ⟨S1650000, .f32⟩
  | .hbm, ⟨42, _⟩ => ⟨S_, .i32⟩
  | .hbm, ⟨43, _⟩ => ⟨S1650000, .i32⟩
  | .hbm, ⟨44, _⟩ => ⟨S1650000, .i1⟩
  | .hbm, ⟨45, _⟩ => ⟨S_, .i32⟩
  | .hbm, ⟨46, _⟩ => ⟨S1650000, .i32⟩
  | .hbm, ⟨47, _⟩ => ⟨S1650000, .i32⟩
  | .hbm, ⟨48, _⟩ => ⟨S1650000, .i32⟩
  | .hbm, ⟨49, _⟩ => ⟨S1650000x1, .i32⟩
  | .hbm, ⟨50, _⟩ => ⟨S1650000, .f32⟩
  | .hbm, ⟨51, _⟩ => ⟨S1650000, .f32⟩
  | .hbm, ⟨52, _⟩ => ⟨S_, .i32⟩
  | .hbm, ⟨53, _⟩ => ⟨S50000, .i32⟩
  | .hbm, ⟨54, _⟩ => ⟨S50000, .i1⟩
  | .hbm, ⟨55, _⟩ => ⟨S_, .i32⟩
  | .hbm, ⟨56, _⟩ => ⟨S50000, .i32⟩
  | .hbm, ⟨57, _⟩ => ⟨S50000, .i32⟩
  | .hbm, ⟨58, _⟩ => ⟨S50000, .i32⟩
  | .hbm, ⟨59, _⟩ => ⟨S50000x1, .i32⟩
  | .hbm, ⟨60, _⟩ => ⟨S50000x128, .f32⟩
  | .hbm, ⟨61, _⟩ => ⟨S50000x128, .f32⟩
  | .hbm, ⟨62, _⟩ => ⟨S_, .i32⟩
  | .hbm, ⟨63, _⟩ => ⟨S1650000, .i32⟩
  | .hbm, ⟨64, _⟩ => ⟨S1650000, .i1⟩
  | .hbm, ⟨65, _⟩ => ⟨S_, .i32⟩
  | .hbm, ⟨66, _⟩ => ⟨S1650000, .i32⟩
  | .hbm, ⟨67, _⟩ => ⟨S1650000, .i32⟩
  | .hbm, ⟨68, _⟩ => ⟨S1650000, .i32⟩
  | .hbm, ⟨69, _⟩ => ⟨S1650000x1, .i32⟩
  | .hbm, ⟨70, _⟩ => ⟨S1650000x128, .f32⟩
  | .hbm, ⟨71, _⟩ => ⟨S1650000x1, .f32⟩
  | .hbm, ⟨72, _⟩ => ⟨S1650000x128, .f32⟩
  | .hbm, ⟨73, _⟩ => ⟨S1650000x128, .f32⟩
  | .hbm, ⟨74, _⟩ => ⟨S_, .f32⟩
  | .hbm, ⟨75, _⟩ => ⟨S50000x128, .f32⟩
  | .hbm, ⟨76, _⟩ => ⟨S1650000x1, .i32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S50000x128, .f32⟩
  | .hbm, ⟨83, _⟩ => ⟨S50000x128, .f32⟩
  | .hbm, ⟨84, _⟩ => ⟨S50000x64, .f32⟩
  | .hbm, ⟨85, _⟩ => ⟨S_, .i32⟩
  | .hbm, ⟨86, _⟩ => ⟨S1650000, .i32⟩
  | .hbm, ⟨87, _⟩ => ⟨S1650000, .i1⟩
  | .hbm, ⟨88, _⟩ => ⟨S_, .i32⟩
  | .hbm, ⟨89, _⟩ => ⟨S1650000, .i32⟩
  | .hbm, ⟨90, _⟩ => ⟨S1650000, .i32⟩
  | .hbm, ⟨91, _⟩ => ⟨S1650000, .i32⟩
  | .hbm, ⟨92, _⟩ => ⟨S1650000x1, .i32⟩
  | .hbm, ⟨93, _⟩ => ⟨S1650000x64, .f32⟩
  | .hbm, ⟨94, _⟩ => ⟨S1650000x1, .f32⟩
  | .hbm, ⟨95, _⟩ => ⟨S1650000x64, .f32⟩
  | .hbm, ⟨96, _⟩ => ⟨S1650000x64, .f32⟩
  | .hbm, ⟨97, _⟩ => ⟨S_, .f32⟩
  | .hbm, ⟨98, _⟩ => ⟨S50000x64, .f32⟩
  | .hbm, ⟨99, _⟩ => ⟨S1650000x1, .i32⟩
  | .hbm, ⟨100, _⟩ => ⟨S50000x64, .f32⟩
  | .hbm, ⟨101, _⟩ => ⟨S1x64, .f32⟩
  | .hbm, ⟨102, _⟩ => ⟨S50000x64, .f32⟩
  | .hbm, ⟨103, _⟩ => ⟨S50000x64, .f32⟩
  | .hbm, ⟨104, _⟩ => ⟨S50000x64, .f32⟩
  | .hbm, ⟨105, _⟩ => ⟨S_, .i32⟩
  | .hbm, ⟨106, _⟩ => ⟨S1650000, .i32⟩
  | .hbm, ⟨107, _⟩ => ⟨S1650000, .i1⟩
  | .hbm, ⟨108, _⟩ => ⟨S_, .i32⟩
  | .hbm, ⟨109, _⟩ => ⟨S1650000, .i32⟩
  | .hbm, ⟨110, _⟩ => ⟨S1650000, .i32⟩
  | .hbm, ⟨111, _⟩ => ⟨S1650000, .i32⟩
  | .hbm, ⟨112, _⟩ => ⟨S1650000x1, .i32⟩
  | .hbm, ⟨113, _⟩ => ⟨S1650000x64, .f32⟩
  | .hbm, ⟨114, _⟩ => ⟨S1650000x1, .f32⟩
  | .hbm, ⟨115, _⟩ => ⟨S1650000x64, .f32⟩
  | .hbm, ⟨116, _⟩ => ⟨S1650000x64, .f32⟩
  | .hbm, ⟨117, _⟩ => ⟨S_, .f32⟩
  | .hbm, ⟨118, _⟩ => ⟨S50000x64, .f32⟩
  | .hbm, ⟨119, _⟩ => ⟨S1650000x1, .i32⟩
  | .hbm, ⟨120, _⟩ => ⟨S50000x64, .f32⟩
  | .hbm, ⟨121, _⟩ => ⟨S1x64, .f32⟩
  | .hbm, ⟨122, _⟩ => ⟨S50000x64, .f32⟩
  | .hbm, ⟨123, _⟩ => ⟨S50000x64, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_c_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_11 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call1_cst : Ref sig .tc := ⟨.hbm, 81, rfl⟩
abbrev main_call1_v0 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_15 : Ref sig .tc := ⟨.hbm, 105, rfl⟩
abbrev main_v75 : Ref sig .tc := ⟨.hbm, 106, rfl⟩
abbrev main_v76 : Ref sig .tc := ⟨.hbm, 107, rfl⟩
abbrev main_c_16 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_17 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S50000_S50000x1_0 : S50000.BroadcastsInDim S50000x1 (![0] : Fin 1 → Fin S50000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S50000x1_S50000x128_1_0_n_n_0_1_1128_wf : GatherDims.WF S50000x128 S50000x1 S50000x128 [1] [0] [] [0] [] 1 ![1, 128]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

class Facts : Prop extends Facts₀ where

variable [Facts]
-- ==== Proof.Spec.lean ====
/-
  The graph-convolution encoder as named stages, over the reference program's own shape records.

  Nodes are numbered 0 … 49999 and carry 128 features. The edge list `ei : i32[2, 1600000]` gives a source row
  and a target row per edge; 50000 self-loops (an iota) are appended to both, so there are 1650000 edges.
  `srcIds` / `dstIds` are those two rows; `wrap` adds 50000 to a negative id (NumPy's negative indexing).
  `deg n` counts the edges whose target is `n` (a scatter-add of ones), `dis = deg^(-1/2)` where `deg > 0`, and
  the edge weight is `wgt e = dis (src e) · dis (dst e)`.
  One propagation step of width K, `prop`, sends a node table `H : [50000, K]` to
  `(prop H) (n, j) = ∑ over edges e with dst e = n of H (src e, j) · wgt e`  (a row gather, a scaling, a scatter-add).
  The encoder is
    h1 = relu (prop128 (emb[x] · W1) + b1),   mu = prop64 (h1 · Wmu) + bmu,   logvar = prop64 (h1 · Wlv) + blv.
-/
import proofs.«420012_j10187662426178_2_alg».proof.Proof.Gen.ReferenceIdeal

noncomputable section

namespace Cert.Gcn

open Idealize.ShloMosaic Cert.ReferenceIdeal Cert.ReferenceIdeal.Facts₀

variable {F : FTy → Type} [FloatOps F]

/-- The source row of every edge, self-loops appended. -/
def srcIds (ei : IVec S2x1600000 32) : IVec S1650000 32 :=
  concatenate S1650000 0 [⟨S1600000, (shapeCast _ (extractStridedSlice S1x1600000 ![0, 0] ei slices_S2x1600000_S1x1600000_0_0) shapeCasts_S1x1600000_S1600000)⟩, ⟨S50000, (iotaInDim S50000 32 0)⟩] concatenates_S1600000_S50000_S1650000_d0

/-- The target row of every edge, self-loops appended. -/
def dstIds (ei : IVec S2x1600000 32) : IVec S1650000 32 :=
  concatenate S1650000 0 [⟨S1600000, (shapeCast _ (extractStridedSlice S1x1600000 ![1, 0] ei slices_S2x1600000_S1x1600000_1_0) shapeCasts_S1x1600000_S1600000)⟩, ⟨S50000, (iotaInDim S50000 32 0)⟩] concatenates_S1600000_S50000_S1650000_d0

/-- A negative edge id counts from the end: 50000 is added to it. -/
def wrap (r : IVec S1650000 32) : IVec S1650000 32 :=
  select (cmpi .slt r (broadcastInDim S1650000 ![] bcast_S_S1650000 (constantI S_ 32 0#32))) (addi r (broadcastInDim S1650000 ![] bcast_S_S1650000 (constantI S_ 32 50000#32))) r

/-- The same for the 50000 node ids that index the embedding table. -/
def wrapNode (x : IVec S50000 32) : IVec S50000 32 :=
  select (cmpi .slt x (broadcastInDim S50000 ![] bcast_S_S50000 (constantI S_ 32 0#32))) (addi x (broadcastInDim S50000 ![] bcast_S_S50000 (constantI S_ 32 50000#32))) x

/-- An id vector as the one-column index matrix a gather or scatter takes. -/
abbrev col1 (r : IVec S1650000 32) : IVec S1650000x1 32 := broadcastInDim S1650000x1 ![0] bcast_S1650000_S1650000x1_0 r

/-- In-degree (self-loop included): a scatter-add of ones at the target ids. -/
def deg (ei : IVec S2x1600000 32) : FVec F S50000 .f32 :=
  Host.scatterAdd scatter_S50000_S1650000x1_S1650000_n_0_0_1 (broadcastInDim S50000 ![] bcast_S_S50000 (constant S_ .f32 0x00000000#32)) (col1 (dstIds ei)) (broadcastInDim S1650000 ![] bcast_S_S1650000 (constant S_ .f32 0x3F800000#32))

/-- `deg^(-1/2)` where the degree is positive, else 0. -/
def dis (ei : IVec S2x1600000 32) : FVec F S50000 .f32 :=
  select (cmpf .ogt (deg (F := F) ei) (broadcastInDim S50000 ![] bcast_S_S50000 (constant S_ .f32 0x00000000#32))) (Host.rsqrt (maximumf (deg (F := F) ei) (broadcastInDim S50000 ![] bcast_S_S50000 (constant S_ .f32 0x3F800000#32)))) (broadcastInDim S50000 ![] bcast_S_S50000 (id (constant S_ .f32 0x00000000#32)))

/-- The weight of an edge: `dis` at its source times `dis` at its target. -/
def wgt (ei : IVec S2x1600000 32) : FVec F S1650000 .f32 :=
  mulf (Host.gather gather_S50000_S1650000x1_S1650000_n_0_n_n_0_1_1 (dis (F := F) ei) (col1 (wrap (srcIds ei)))) (Host.gather gather_S50000_S1650000x1_S1650000_n_0_n_n_0_1_1 (dis (F := F) ei) (col1 (wrap (dstIds ei))))

/-- One propagation step on 128 columns: gather the source rows, scale by the edge weight, add at the target rows. -/
def prop128 (ei : IVec S2x1600000 32) (H : FVec F S50000x128 .f32) : FVec F S50000x128 .f32 :=
  Host.scatterAdd scatter_S50000x128_S1650000x1_S1650000x128_1_0_0_1 (broadcastInDim S50000x128 ![] bcast_S_S50000x128 (constant S_ .f32 0x00000000#32)) (col1 (dstIds ei)) (mulf (Host.gather gather_S50000x128_S1650000x1_S1650000x128_1_0_n_n_0_1_1128 H (col1 (wrap (srcIds ei)))) (broadcastInDim S1650000x128 ![0, 1] bcast_S1650000x1_S1650000x128_0_1 (broadcastInDim S1650000x1 ![0] bcast_S1650000_S1650000x1_0 (wgt (F := F) ei))))

/-- The same on 64 columns. -/
def prop64 (ei : IVec S2x1600000 32) (P : FVec F S50000x64 .f32) : FVec F S50000x64 .f32 :=
  Host.scatterAdd scatter_S50000x64_S1650000x1_S1650000x64_1_0_0_1 (broadcastInDim S50000x64 ![] bcast_S_S50000x64 (constant S_ .f32 0x00000000#32)) (col1 (dstIds ei)) (mulf (Host.gather gather_S50000x64_S1650000x1_S1650000x64_1_0_n_n_0_1_164 P (col1 (wrap (srcIds ei)))) (broadcastInDim S1650000x64 ![0, 1] bcast_S1650000x1_S1650000x64_0_1 (broadcastInDim S1650000x1 ![0] bcast_S1650000_S1650000x1_0 (wgt (F := F) ei))))

/-- The embedding rows the node ids select. -/
def embRows (x : IVec S50000 32) (emb : FVec F S50000x128 .f32) : FVec F S50000x128 .f32 :=
  Host.gather gather_S50000x128_S50000x1_S50000x128_1_0_n_n_0_1_1128 emb (broadcastInDim S50000x1 ![0] bcast_S50000_S50000x1_0 (wrapNode x))

/-- The first layer before its bias: the projected embedding rows, propagated. -/
def agg1 (x : IVec S50000 32) (ei : IVec S2x1600000 32) (emb : FVec F S50000x128 .f32) (W1 : FVec F S128x128 .f32) : FVec F S50000x128 .f32 :=
  prop128 ei (Host.dotGeneral dot_S50000x128_S128x128_S50000x128_1_0_0_1_n_n none (embRows x emb) W1)

/-- The hidden layer: bias, then relu. -/
def hidden (x : IVec S50000 32) (ei : IVec S2x1600000 32) (emb : FVec F S50000x128 .f32) (W1 : FVec F S128x128 .f32) (b1 : FVec F S128 .f32) : FVec F S50000x128 .f32 :=
  maximumf (addf (agg1 x ei emb W1) (broadcastInDim S50000x128 ![0, 1] bcast_S1x128_S50000x128_0_1 (broadcastInDim S1x128 ![1] bcast_S128_S1x128_1 b1))) (broadcastInDim S50000x128 ![] bcast_S_S50000x128 (constant S_ .f32 0x00000000#32))

/-- An output head: project the hidden layer to 64 columns, propagate, add the bias. -/
def head (x : IVec S50000 32) (ei : IVec S2x1600000 32) (emb : FVec F S50000x128 .f32) (W1 : FVec F S128x128 .f32) (b1 : FVec F S128 .f32) (W : FVec F S128x64 .f32) (b : FVec F S64 .f32) : FVec F S50000x64 .f32 :=
  addf (prop64 ei (Host.dotGeneral dot_S50000x128_S128x64_S50000x64_1_0_0_1_n_n none (hidden x ei emb W1 b1) W)) (broadcastInDim S50000x64 ![0, 1] bcast_S1x64_S50000x64_0_1 (broadcastInDim S1x64 ![1] bcast_S64_S1x64_1 b))

end Cert.Gcn

end
-- ==== Proof.PropCols.lean ====
/-
  Propagation acts on each feature column separately: a row gather, a per-edge scaling and a row scatter-add
  never mix columns. So columns off … off+63 of `prop128 ei H` are `prop64 ei` of those 64 columns of `H`.

  The general lemmas come first, stated for any number of rows N, of edges E and of columns K: where an update of a
  row scatter lands, the row scatter-add read at one element as a sum over the edges that name its row, the row gather
  read at one element, a per-edge vector repeated along the columns, and a block of columns read at one element.
  Read at element (n, j), both sides of the claim are then the same sum over the edges e whose target is n of
  (table at (source row of e, off + j)) · (weight of e).
-/
import proofs.«420012_j10187662426178_2_alg».proof.Proof.Spec
import Idealize.ShloMosaic.Lib.ValueIdx
import Idealize.ShloMosaic.PureOps.Ideal.Laws

noncomputable section

open scoped BigOperators

namespace Cert.Gcn

open Idealize.ShloMosaic Idealize.ShloMosaic.ValueIdx Cert.ReferenceIdeal

/-- The dimension numbers of a scatter of whole rows. -/
abbrev rowScatter (N E K : Nat) (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

/-- An update element lands on the operand element `i` exactly when, on every axis, the start of its window (read signed off
    the indices) plus its coordinate inside the window is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h a
    split at h
    · next hall =>
      have h' := Option.some.inj h
      subst h'
      exact (Int.toNat_of_nonneg (hall a).1).symm
    · exact absurd h (by simp)
  · intro hall
    have h : ∀ a, 0 ≤ d.start j idx a + (d.window j a : Int) ∧ d.start j idx a + (d.window j a : Int) < s.size a := by
      intro a
      rw [hall a]
      exact ⟨Int.natCast_nonneg _, by exact_mod_cast (i a).isLt⟩
    rw [dif_pos h]
    congr 1
    funext a
    refine Fin.ext ?_
    show (d.start j idx a + (d.window j a : Int)).toNat = (i a).val
    rw [hall a]
    exact Int.toNat_natCast _

section RowScatter
variable {N E K w : Nat} (wf : ScatterDims.WF ⟨2, ![N, K]⟩ ⟨2, ![E, 1]⟩ ⟨2, ![E, K]⟩ [1] [0] [0] 1)

theorem rowScatter_start0 (idx : IVec ⟨2, ![E, 1]⟩ w) (e : Fin E) (j : Fin K) :
    (rowScatter N E K wf).start (ix2 e j) idx 0 = (idx (ix2 e (0 : Fin 1))).toInt := by
  unfold ScatterDims.start
  rw [dif_pos (show (0 : Fin 2) ∈ (rowScatter N E K wf).scatterDimsToOperandDims from List.mem_singleton.mpr rfl)]
  congr 2
  funext b
  refine Fin.ext ?_
  match b with
  | ⟨0, _⟩ => rfl
  | ⟨1, _⟩ => rfl

theorem rowScatter_start1 (idx : IVec ⟨2, ![E, 1]⟩ w) (e : Fin E) (j : Fin K) :
    (rowScatter N E K wf).start (ix2 e j) idx 1 = 0 := by
  unfold ScatterDims.start
  rw [dif_neg (show (1 : Fin 2) ∉ (rowScatter N E K wf).scatterDimsToOperandDims by show (1 : Fin 2) ∉ ([0] : List (Fin 2)); decide)]

theorem rowScatter_window0 (e : Fin E) (j : Fin K) :
    (rowScatter N E K wf).window (ix2 e j) 0 = 0 := by
  unfold ScatterDims.window
  rw [dif_neg (show (0 : Fin 2) ∉ (rowScatter N E K wf).sKept by show (0 : Fin 2) ∉ ([1] : List (Fin 2)); decide)]

theorem rowScatter_window1 (e : Fin E) (j : Fin K) :
    (rowScatter N E K wf).window (ix2 e j) 1 = j.val := by
  unfold ScatterDims.window
  rw [dif_pos (show (1 : Fin 2) ∈ (rowScatter N E K wf).sKept by show (1 : Fin 2) ∈ ([1] : List (Fin 2)); decide)]
  rfl

/-- Where an update element lands: on the row its index word names (read signed), in its own column; nowhere when that row
    is not a row of the operand. -/
theorem rowScatter_resultIdx_eq_some (idx : IVec ⟨2, ![E, 1]⟩ w) (e : Fin E) (j' : Fin K) (n : Fin N) (j : Fin K) :
    (rowScatter N E K wf).resultIdx? (ix2 e j') idx = some (ix2 n j) ↔ ((idx (ix2 e (0 : Fin 1))).toInt = n.val ∧ j' = j) := by
  rw [resultIdx?_eq_some_iff, Fin.forall_fin_two, rowScatter_start0, rowScatter_start1, rowScatter_window0, rowScatter_window1]
  show ((idx (ix2 e (0 : Fin 1))).toInt + ((0 : Nat) : Int) = (n.val : Int) ∧ (0 : Int) + (j'.val : Int) = (j.val : Int)) ↔ _
  constructor
  · rintro ⟨h0, h1⟩
    exact ⟨by omega, Fin.ext (by omega)⟩
  · rintro ⟨h0, rfl⟩
    exact ⟨by omega, Int.zero_add _⟩

/-- A scatter-add of whole rows read at an element: the operand's element plus the sum, over the updates whose index word
    (read signed) names this row, of the update's element in this column. -/
theorem rowScatterAdd_apply {φ : FTy} (x : FVec Ideal ⟨2, ![N, K]⟩ φ) (idx : IVec ⟨2, ![E, 1]⟩ w) (upd : FVec Ideal ⟨2, ![E, K]⟩ φ)
    (n : Fin N) (j : Fin K) :
    Host.scatterAdd (rowScatter N E K wf) x idx upd (ix2 n j)
      = x (ix2 n j) + ∑ e ∈ Finset.univ.filter (fun e : Fin E => (idx (ix2 e (0 : Fin 1))).toInt = (n.val : Int)), upd (ix2 e j) := by
  show Ideal.hostScatterAdd (rowScatter N E K wf) x idx upd (ix2 n j) = _
  unfold Ideal.hostScatterAdd
  congr 1
  rw [Finset.sum_filter, Finset.sum_filter, sum_idx2]
  refine Finset.sum_congr rfl fun e _ => ?_
  simp only [rowScatter_resultIdx_eq_some]
  by_cases he : (idx (ix2 e (0 : Fin 1))).toInt = (n.val : Int)
  · simp only [he, true_and, if_true]
    rw [Finset.sum_ite_eq' Finset.univ j fun j' => upd (ix2 e j'), if_pos (Finset.mem_univ j)]
  · simp only [he, false_and, if_false]
    exact Finset.sum_const_zero

end RowScatter

/-- The dimension numbers of a gather of whole rows. -/
abbrev rowGather (N E K : Nat) (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

section RowGather
variable {N E K w : Nat} (wf : GatherDims.WF ⟨2, ![N, K]⟩ ⟨2, ![E, 1]⟩ ⟨2, ![E, K]⟩ [1] [0] [] [0] [] 1 ![1, K])

/-- The row a gathered element is read from: the index word of its update row, read signed and clamped into the table. -/
theorem rowGather_operandIdx0 (idx : IVec ⟨2, ![E, 1]⟩ w) (e : Fin E) (j : Fin K) :
    ((rowGather N E K wf).operandIdx (ix2 e j) idx 0).val = min (idx (ix2 e (0 : Fin 1))).toInt.toNat (N - 1) := by
  show (rowGather N E K wf).start (ix2 e j) idx 0 + (rowGather N E K wf).batchCoord (ix2 e j) 0 + (rowGather N E K wf).offCoord (ix2 e j) 0 = _
  rw [GatherDims.batchCoord_eq_zero _ _ _ List.not_mem_nil,
    GatherDims.offCoord_eq_zero _ _ _ (show (0 : Fin 2) ∉ (rowGather N E K wf).sKept by show (0 : Fin 2) ∉ ([1] : List (Fin 2)); decide)]
  simp only [Nat.add_zero]
  unfold GatherDims.start
  rw [dif_pos (show (0 : Fin 2) ∈ (rowGather N E K wf).startIndexMap from List.mem_singleton.mpr rfl)]
  have hsi : (rowGather N E K wf).siIdx (ix2 e j) ⟨List.idxOf (0 : Fin 2) (rowGather N E K wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The column a gathered element is read from: its own. -/
theorem rowGather_operandIdx1 (idx : IVec ⟨2, ![E, 1]⟩ w) (e : Fin E) (j : Fin K) :
    ((rowGather N E K wf).operandIdx (ix2 e j) idx 1).val = j.val := by
  show (rowGather N E K wf).start (ix2 e j) idx 1 + (rowGather N E K wf).batchCoord (ix2 e j) 1 + (rowGather N E K wf).offCoord (ix2 e j) 1 = _
  rw [GatherDims.batchCoord_eq_zero _ _ _ List.not_mem_nil]
  unfold GatherDims.start GatherDims.offCoord
  rw [dif_neg (show (1 : Fin 2) ∉ (rowGather N E K wf).startIndexMap by show (1 : Fin 2) ∉ ([0] : List (Fin 2)); decide),
    dif_pos (show (1 : Fin 2) ∈ (rowGather N E K wf).sKept by show (1 : Fin 2) ∈ ([1] : List (Fin 2)); decide)]
  simp only [Nat.add_zero, Nat.zero_add]
  rfl

/-- A gather of whole rows read at an element: the table at the row the update row's index word names (read signed and
    clamped into the table), in the same column. -/
theorem rowGather_apply {α : Type} (hN : 0 < N) (x : (⟨2, ![N, K]⟩ : Shape).Idx → α) (idx : IVec ⟨2, ![E, 1]⟩ w) (e : Fin E) (j : Fin K) :
    Host.gather (rowGather N E K wf) x idx (ix2 e j)
      = x (ix2 (⟨min (idx (ix2 e (0 : Fin 1))).toInt.toNat (N - 1), by omega⟩ : Fin N) j) := by
  unfold Host.gather
  congr 1
  funext a
  refine Fin.ext ?_
  match a with
  | ⟨0, _⟩ => exact rowGather_operandIdx0 wf idx e j
  | ⟨1, _⟩ => exact rowGather_operandIdx1 wf idx e j

end RowGather

section Layout
variable {α : Type}

/-- A vector made a one-column matrix and then repeated along the columns: element `(e, j)` is the vector's `e`. -/
theorem bcastRows_apply {E K : Nat} (h₁ : (⟨1, ![E]⟩ : Shape).BroadcastsInDim ⟨2, ![E, 1]⟩ ![0])
    (h₂ : (⟨2, ![E, 1]⟩ : Shape).BroadcastsInDim ⟨2, ![E, K]⟩ ![0, 1]) (v : (⟨1, ![E]⟩ : Shape).Idx → α) (e : Fin E) (j : Fin K) :
    broadcastInDim ⟨2, ![E, K]⟩ ![0, 1] h₂ (broadcastInDim ⟨2, ![E, 1]⟩ ![0] h₁ v) (ix2 e j) = v (ix1 e) := by
  unfold broadcastInDim
  congr 1
  funext a
  obtain rfl : a = 0 := Subsingleton.elim _ _
  refine Fin.ext ?_
  have he := e.isLt
  split
  · next h1 => change E = 1 at h1; show (0 : Nat) = e.val; omega
  · beta_reduce
    split
    · next h1 h2 => exact absurd h2 h1
    · rfl

/-- A block of columns read at an element: the same row, the column moved on by the block's offset. -/
theorem sliceCols_apply {N K K' off : Nat} (hsl : (⟨2, ![N, K]⟩ : Shape).Slices ![0, off] ⟨2, ![N, K']⟩)
    (x : (⟨2, ![N, K]⟩ : Shape).Idx → α) (n : Fin N) (j : Fin K') (hj : off + j.val < K) :
    extractStridedSlice ⟨2, ![N, K']⟩ ![0, off] x hsl (ix2 n j) = x (ix2 n (⟨off + j.val, hj⟩ : Fin K)) := by
  unfold extractStridedSlice
  congr 1
  funext a
  refine Fin.ext ?_
  match a with
  | ⟨0, _⟩ => show 0 + n.val = n.val; omega
  | ⟨1, _⟩ => rfl

end Layout

theorem prop_cols (ei : IVec S2x1600000 32) (H : FVec Ideal S50000x128 .f32) (P : FVec Ideal S50000x64 .f32) (off : Nat)
    (hoff : off + 64 ≤ 128) (hsl : S50000x128.Slices ![0, off] S50000x64)
    (hHP : ∀ (n : Fin 50000) (j : Fin 64), P (ix2 n j) = H (ix2 n ⟨off + j.val, by omega⟩)) :
    extractStridedSlice S50000x64 ![0, off] (prop128 (F := Ideal) ei H) hsl = prop64 (F := Ideal) ei P := by
  unfold prop128 prop64
  generalize wgt (F := Ideal) ei = wv
  generalize dstIds ei = R
  generalize wrap (srcIds ei) = I
  funext i
  obtain ⟨n, j, rfl⟩ : ∃ (n : Fin 50000) (j : Fin 64), i = ix2 n j := ⟨i 0, i 1, eq_ix2 i⟩
  have hj : off + j.val < 128 := by omega
  rw [sliceCols_apply hsl _ n j hj]
  have e128 : scatter_S50000x128_S1650000x1_S1650000x128_1_0_0_1
      = rowScatter 50000 1650000 128 Facts₀.scatter_S50000x128_S1650000x1_S1650000x128_1_0_0_1_wf := rfl
  have e64 : scatter_S50000x64_S1650000x1_S1650000x64_1_0_0_1
      = rowScatter 50000 1650000 64 Facts₀.scatter_S50000x64_S1650000x1_S1650000x64_1_0_0_1_wf := rfl
  have g128 : gather_S50000x128_S1650000x1_S1650000x128_1_0_n_n_0_1_1128
      = rowGather 50000 1650000 128 Facts₀.gather_S50000x128_S1650000x1_S1650000x128_1_0_n_n_0_1_1128_wf := rfl
  have g64 : gather_S50000x64_S1650000x1_S1650000x64_1_0_n_n_0_1_164
      = rowGather 50000 1650000 64 Facts₀.gather_S50000x64_S1650000x1_S1650000x64_1_0_n_n_0_1_164_wf := rfl
  rw [e128, e64, g128, g64, rowScatterAdd_apply, rowScatterAdd_apply]
  refine congrArg₂ (· + ·) rfl (Finset.sum_congr rfl fun e _ => ?_)
  rw [mulf_apply, mulf_apply, bcastRows_apply, bcastRows_apply, rowGather_apply _ (by decide), rowGather_apply _ (by decide), hHP]

end Cert.Gcn

end
-- ==== Proof.Region0.lean ====
/-
  The first kernel region: ten row blocks of 5000 × 128; at each block the body multiplies the block of its
  first operand by the whole 128 × 128 second operand. Block t of the result array is what point t wrote, the
  blocks tile the array, so entry (n, j) of the array the region leaves is ∑ k, a (n, k) · w (k, j), whatever
  contents `V` the region is entered with.
-/
import proofs.«420012_j10187662426178_2_alg».proof.Proof.Gen.KernelIdeal.Frame
import Idealize.ShloMosaic.Lib.ValueIdx
import Idealize.ShloMosaic.Lib.Pipeline.Value
import Idealize.ShloMosaic.PureOps.Ideal.Laws

noncomputable section

namespace Cert.Gcn.Region0

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The array region 0 leaves in its output window, as a function on the literal index type. -/
abbrev outArr (c : Dev nD) : S50000x128.Idx → EReal := (dat0 (F := Ideal) V c).arrAt 2 cfg0.N
/-- Its two operands as the region finds them. -/
abbrev lhsArr (c : Dev nD) : S50000x128.Idx → EReal := V c main_v32
abbrev rhsArr (c : Dev nD) : S128x128.Idx → EReal := V c main_arg3

/-! ## The block product at an index -/

/-- The offset vector of a whole-block access is zero on both axes. -/
theorem off_zero : (![0, 0] : Fin 2 → Nat) = fun _ => 0 := funext fun a => by fin_cases a <;> rfl

/-- Row axis of the left factor: the output's row. -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Column axis of the left factor: the contraction coordinate. -/
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- Row axis of the right factor: the contraction coordinate. -/
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Column axis of the right factor: the output's column. -/
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- What the body stores, read at row `p` and column `q` of the block: the inner product of row `p` of the
    loaded left block with column `q` of the loaded right block (the format changes are the identity on the
    extended reals, and the accumulator starts at zero). -/
theorem pay_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  simp only [matmul, shapeCast_self]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]
  rfl

/-! ## The whole-array function and one point's block of it -/

/-- The product of a 50000 × 128 array by a 128 × 128 array, entry by entry. -/
def G (a : S50000x128.Idx → EReal) (w : S128x128.Idx → EReal) : S50000x128.Idx → EReal :=
  fun i => ∑ k : Fin 128, a (ix2 (i 0) k) * w (ix2 k (i 1))

/-- An entry of the stored block is an entry of the product as soon as the block's row of the left operand
    is the array's row and the block's column of the right operand is the array's column. -/
theorem pay_eq_G (a : S50000x128.Idx → EReal) (w : S128x128.Idx → EReal)
    (x0 : Vec Ideal S5000x128 .f32) (x1 : Vec Ideal S128x128 .f32) (j : S5000x128.Idx) (i : S50000x128.Idx)
    (h0 : ∀ k : Fin 128, x0 (ix2 (j 0) k) = a (ix2 (i 0) k))
    (h1 : ∀ k : Fin 128, x1 (ix2 k (j 1)) = w (ix2 k (i 1))) :
    k0_pay1 x0 x1 j = G a w i := by
  obtain ⟨p, q, rfl⟩ : ∃ (p : Fin 5000) (q : Fin 128), j = ix2 p q := ⟨j 0, j 1, eq_ix2 j⟩
  rw [pay_apply]
  unfold G
  exact Finset.sum_congr rfl fun k _ => by
    rw [show x0 (ix2 p k) = a (ix2 (i 0) k) from h0 k, show x1 (ix2 k q) = w (ix2 k (i 1)) from h1 k]

/-- The index maps over the ten grid points: the left operand's and the result's windows sit at row block `t`,
    column block 0; the right operand's window stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two operands as the region finds them. -/
theorem flushed_eq (c : Dev nD) (t : Fin cfg0.N) :
    (dat0 V c).flushed 2 t = ((cfg0.win 2).blk t).view.read (Elt Ideal) (G (lhsArr V c) (rhsArr V c)) := by
  show (cfg0.win 2).cut (grid0.coords t) ((dat0 V c).after 2 t) = _
  rw [after0_2]
  unfold out0_2
  rw [View.canon_unit_zero off_zero]
  simp only [View.ld_unit_zero (S := S5000x128) off_zero, View.ld_unit_zero (S := S128x128) off_zero]
  obtain ⟨e0, e1, e2, e3, e4, e5⟩ := idx_facts t
  funext j
  show k0_pay1 (iblk0 V c 0 t) (iblk0 V c 1 t) j = G (lhsArr V c) (rhsArr V c) (((cfg0.win 2).blk t).view.emb j)
  refine pay_eq_G _ _ _ _ j _ (fun k => ?_) (fun k => ?_)
  · show V c main_v32 (((cfg0.win 0).blk t).view.emb (ix2 (j 0) k)) = V c main_v32 (ix2 ((((cfg0.win 2).blk t).view.emb j) 0) k)
    refine congrArg (V c main_v32) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg3 (((cfg0.win 1).blk t).view.emb (ix2 k (j 1))) = V c main_arg3 (ix2 k ((((cfg0.win 2).blk t).view.emb j) 1))
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-! ## The blocks tile the array -/

/-- An index of the array lies in point `t`'s block iff each coordinate lies in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v33).slice (win0_2.rect t)).set ↔ _
  rw [View.set_slice_whole, Rect.mem_set_unit]
  exact Iff.rfl

/-- Row `r` of the array is in the block of point `r / 5000`. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by show (i 0).val / 5000 < grid0.N; rw [N_0]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-! ## The array the region leaves -/

/-- The result array ends holding the product of the two operands as the region finds them. -/
theorem final (c : Dev nD) : (dat0 V c).arrAt 2 cfg0.N = G (lhsArr V c) (rhsArr V c) :=
  (dat0 V c).arrAt_eq_of_cover 2 (G (lhsArr V c) (rhsArr V c)) (fun t _ => flushed_eq V c t) cover

theorem region0_apply (c : Dev nD) (n : Fin 50000) (j : Fin 128) :
    outArr V c (ix2 n j) = ∑ k : Fin 128, lhsArr V c (ix2 n k) * rhsArr V c (ix2 k j) :=
  congrFun (final V c) (ix2 n j)

end Cert.Gcn.Region0

end
-- ==== Proof.Region1.lean ====
/-
  The second kernel region: ten row blocks of 5000 × 128; at each block the body adds the bias row to the block,
  takes the maximum with 0, and multiplies by the whole 128 × 128 weight. So entry (n, j) of the array the region
  leaves is ∑ k, max (a (n, k) + b (0, k)) 0 · w (k, j), whatever contents `V` the region is entered with.
-/
import proofs.«420012_j10187662426178_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.Gcn.Region1

open Idealize.ShloMosaic Idealize.ShloMosaic.TcCoe Idealize.ShloMosaic.ValueIdx Idealize.SL.Sem
open Cert.KernelIdeal Cert.KernelIdeal.Gen

/-! ## The block product at an index -/

/-- The contraction runs over the left operand's second axis and the right operand's first: the four coordinate
    readings of the two operand indices. -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 block times a 128 × 128 matrix, accumulated from zero, read at (p, q): the row-by-column sum. -/
theorem blockMatmul_apply (x : FVec Ideal S5000x128 .bf16) (y : FVec Ideal S128x128 .bf16) (p : Fin 5000) (q : Fin 128) :
    matmul dot_S5000x128_S128x128_S5000x128_1_0_0_1_n_n none x y (constant S5000x128 .f32 0x00000000#32) (ix2 p q)
      = ∑ k : Fin 128, x (ix2 p k) * y (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The body's result at (p, q) of a block: bias added along the row, the maximum with 0, then the product. -/
theorem payload_apply (x0 : Vec Ideal S5000x128 .f32) (x1 : Vec Ideal S1x128 .f32) (x2 : Vec Ideal S128x128 .f32) (p : Fin 5000) (q : Fin 128) :
    k1_pay1 x0 x1 x2 (ix2 p q) = ∑ k : Fin 128, max (x0 (ix2 p k) + x1 (ix2 0 k)) 0 * x2 (ix2 k q) := by
  unfold k1_pay1
  rw [blockMatmul_apply]
  refine Finset.sum_congr rfl fun k _ => ?_
  rw [truncf_apply, truncf_apply, maximumf_apply, addf_apply, broadcast_apply, shapeCast_self, shapeCast_self, shapeCast_self,
    broadcastTo_1b_ab_apply]
  show max _ (Ideal.ofBits .f32 0x00000000#32) * _ = _
  rw [Ideal.ofBits_zero_f32]

variable (V : (c : Dev nD) → (b : Ref sig .tc) → Buf (Elt Ideal) ((c : Thread nD τ).loc b))

/-- The array region 1 leaves in its output window, as a function on the literal index type. -/
abbrev outArr (c : Dev nD) : S50000x128.Idx → EReal := (dat1 (F := Ideal) V c).arrAt 3 cfg1.N
/-- Its three operands as the region finds them: the aggregated features, the bias row, the weight. -/
abbrev aggArr (c : Dev nD) : S50000x128.Idx → EReal := V c main_v46
abbrev biasArr (c : Dev nD) : S1x128.Idx → EReal := V c main_v48
abbrev wArr (c : Dev nD) : S128x128.Idx → EReal := V c main_v47

/-! ## From blocks to the array -/

theorem zeros2 : (![0, 0] : Fin 2 → Nat) = fun _ => 0 := funext fun a => by fin_cases a <;> rfl

/-- What the region leaves, as one function of its three operands: at (n, j), the sum over k of
    max (a (n, k) + b (0, k)) 0 · w (k, j). -/
def G (a : S50000x128.Idx → EReal) (b : S1x128.Idx → EReal) (w : S128x128.Idx → EReal) : S50000x128.Idx → EReal :=
  fun i => ∑ k : Fin 128, max (a (ix2 (i 0 : Fin 50000) k) + b (ix2 (0 : Fin 1) k)) 0 * w (ix2 k (i 1 : Fin 128))

/-- The block index maps at the ten grid points: the operand block and the result block are row block `t`,
    the bias row and the weight are their one block at every point. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 10 :=
  (by decide +kernel : ∀ t : Fin grid1.N, _)

/-- What grid point `t` writes back is row block `t` of `G` of the operands as the region finds them. -/
theorem flushed_eq (c : Dev nD) (t : Fin cfg1.N) :
    (dat1 (F := Ideal) V c).flushed 3 t
      = ((cfg1.win 3).blk t).view.read (Elt Ideal) (G (aggArr V c) (biasArr V c) (wArr V c)) := by
  show (cfg1.win 3).cut (grid1.coords t) ((dat1 V c).after 3 t) = _
  rw [after1_3]
  unfold out1_3
  rw [View.canon_unit_zero zeros2]
  simp only [View.ld_unit_zero (S := S5000x128) zeros2, View.ld_unit_zero (S := S1x128) zeros2, View.ld_unit_zero (S := S128x128) zeros2]
  obtain ⟨a00, a01, a10, a11, a20, a21, a30, a31, ht⟩ := index_facts t
  funext y
  obtain ⟨p, q, rfl⟩ : ∃ (p : Fin 5000) (q : Fin 128), y = ix2 p q := ⟨y 0, y 1, eq_ix2 y⟩
  show k1_pay1 (iblk1 V c 0 t) (iblk1 V c 1 t) (iblk1 V c 2 t) (ix2 p q)
    = G (V c main_v46) (V c main_v48) (V c main_v47) (((cfg1.win 3).blk t).view.emb (ix2 p q))
  refine (payload_apply _ _ _ p q).trans ?_
  unfold G
  refine Finset.sum_congr rfl fun k _ => ?_
  have e0 : iblk1 V c 0 t (ix2 p k)
      = V c main_v46 (ix2 ((((cfg1.win 3).blk t).view.emb (ix2 p q)) 0 : Fin 50000) k) := by
    show V c main_v46 (((cfg1.win 0).blk t).view.emb (ix2 p k)) = _
    refine congrArg _ (funext fun a => Fin.ext ?_)
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * k.val = k.val; omega
  have e1 : iblk1 V c 1 t (ix2 (0 : Fin 1) k) = V c main_v48 (ix2 (0 : Fin 1) k) := by
    show V c main_v48 (((cfg1.win 1).blk t).view.emb (ix2 (0 : Fin 1) k)) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  have e2 : iblk1 V c 2 t (ix2 k q)
      = V c main_v47 (ix2 k ((((cfg1.win 3).blk t).view.emb (ix2 p q)) 1 : Fin 128)) := by
    show V c main_v47 (((cfg1.win 2).blk t).view.emb (ix2 k q)) = _
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * q.val = win1_3.index t (1 : Fin 2) * 128 + 1 * q.val; omega
  rw [e0, e1, e2]

/-- An index of the array is in point `t`'s block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v49).slice (win1_3.rect t)).set ↔ _
  rw [View.set_slice_whole, Rect.mem_set_unit]
  exact Iff.rfl

/-- Row `r` lies in row block `r / 5000`: the ten blocks cover the array. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by show (i 0).val / 5000 < grid1.N; rw [N_1]; omega⟩, rfl⟩
  obtain ⟨-, -, -, -, -, -, a30, a31, -⟩ := index_facts t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- So the array the region leaves is `G` of its operands. -/
theorem outArr_eq (c : Dev nD) : outArr V c = G (aggArr V c) (biasArr V c) (wArr V c) :=
  (dat1 (F := Ideal) V c).arrAt_eq_of_cover 3 (G (aggArr V c) (biasArr V c) (wArr V c)) (fun t _ => flushed_eq V c t) cover

theorem region1_apply (c : Dev nD) (n : Fin 50000) (j : Fin 128) :
    outArr V c (ix2 n j) = ∑ k : Fin 128, max (aggArr V c (ix2 n k) + biasArr V c (ix2 0 k)) 0 * wArr V c (ix2 k j) := by
  rw [outArr_eq]
  rfl

end Cert.Gcn.Region1

end
-- ==== Proof.TakeRows.lean ====
/-
  The embedding lookup. The kernel program looks the rows up with a fill: a node id outside 0 … 49999 (after a
  negative one has had 50000 added) gets a row of a fill value instead of a table row. The precondition says every
  node id lies in 0 … 49999, so no id is outside, the fill is never taken, and the lookup is the plain row gather
  `embRows` of the specification.
-/
import proofs.«420012_j10187662426178_2_alg».proof.Defs
import proofs.«420012_j10187662426178_2_alg».proof.Proof.Gen.KernelIdeal.Frame
import proofs.«420012_j10187662426178_2_alg».proof.Proof.Gen.Pre_finite_inputs
import proofs.«420012_j10187662426178_2_alg».proof.Proof.Spec
import Idealize.ShloMosaic.Lib.StableHlo.Run
import Idealize.ShloMosaic.Lib.StableHlo.Predicate
import Idealize.ShloMosaic.Lib.ReduceAll
import Idealize.ShloMosaic.Lib.ValueIdx

noncomputable section

namespace Cert.Gcn.Take

open Idealize.ShloMosaic Idealize.ShloMosaic.TcCoe Idealize.SL.Sem Idealize.ShloMosaic.StableHlo Idealize.ShloMosaic.ValueIdx
open Cert.KernelIdeal Cert.KernelIdeal.Gen Cert.KernelIdeal.Facts₀

variable (m : (ℓ : Loc nD τ sig) → Buf (Elt Ideal) ℓ) (ρ : Dev nD → PrngReg)

instance scalarIdx_subsingleton : Subsingleton Cert.Pre_finite_inputs.S_.Idx := ⟨fun a b => funext fun d => d.elim0⟩

/-! ## The precondition at one node id -/

/-- The last two conjuncts of the precondition say, of every entry of an id vector, that it is at least 0 and below 50000. -/
theorem part2_decode (x : IVec Cert.Pre_finite_inputs.S50000 32) (v : IVec Cert.Pre_finite_inputs.S_ 1)
    (h : Cert.Pre_finite_inputs.fn_part2 (F := Ideal) x v ix0 = 1#1) (i : Cert.Pre_finite_inputs.S50000.Idx) :
    0 ≤ (x i).toInt ∧ (x i).toInt < 50000 := by
  dsimp only [Cert.Pre_finite_inputs.fn_part2] at h
  obtain ⟨h1, hlt⟩ := IntOp.andi_eq_one.1 h
  obtain ⟨-, hge⟩ := IntOp.andi_eq_one.1 h1
  have a : IntOp.cmpi .sge (x i) 0#32 = 1#1 := Host.reduce_andi_all _ _ _ _ _ hge i
  have b : IntOp.cmpi .slt (x i) 50000#32 = 1#1 := Host.reduce_andi_all _ _ _ _ _ hlt i
  rw [IntOp.cmpi_sge] at a
  rw [IntOp.cmpi_slt] at b
  have z : (0#32 : BitVec 32).toInt = 0 := by decide
  have t : (50000#32 : BitVec 32).toInt = 50000 := by decide
  rw [z] at a; rw [t] at b
  exact ⟨a, b⟩

/-- The precondition, read at one node: its id is a row number of the embedding table. -/
theorem id_in_range (hpre : Cert.Pre_KernelIdeal m) (c : Dev nD) (i : S50000.Idx) :
    0 ≤ (m ((c.tc : Thread nD τ).loc main_arg0) i).toInt ∧ (m ((c.tc : Thread nD τ).loc main_arg0) i).toInt < 50000 := by
  have e := congrFun (hpre c) ix0
  dsimp only [Cert.Pre_finite_inputs.fn, Cert.Pre_finite_inputs.fn_part1] at e
  exact part2_decode _ _ e i

/-! ## The lookup as the kernel program computes it -/

/-- A negative node id counts from the end: 50000 is added to it. -/
def wrapK (x : IVec S50000 32) : IVec S50000 32 :=
  select (cmpi .slt x (broadcastInDim S50000 ![] Facts₀.bcast_S_S50000 (constantI S_ 32 0#32))) (addi x (broadcastInDim S50000 ![] Facts₀.bcast_S_S50000 (constantI S_ 32 50000#32))) x

/-- The wrapped ids as the one-column matrix of row numbers the lookup takes. -/
def idCol (x : IVec S50000 32) : IVec S50000x1 32 :=
  broadcastInDim S50000x1 ![0] Facts₀.bcast_S50000_S50000x1_0 (wrapK x)

/-- Entry by entry: does the row number lie in 0 … 49999? -/
def inTable (x : IVec S50000 32) : IVec S50000x1 1 :=
  andi (cmpi .sge (idCol x) (broadcastInDim S50000x1 ![] Facts₀.bcast_S_S50000x1 (constantI S_ 32 0#32)))
    (cmpi .sle (idCol x) (broadcastInDim S50000x1 ![0, 1] Facts₀.bcast_S1x1_S50000x1_0_1 (broadcastInDim S1x1 ![1] Facts₀.bcast_S1_S1x1_1 (constantI S1 32 49999#32))))

/-- Node by node: the conjunction of the range test along the one column. -/
def rowOk (x : IVec S50000 32) : IVec S50000 1 :=
  Host.reduce IntOp.andi (inTable x) (constantI S_ 1 1#1) Facts₀.reducesTo_S50000x1_S50000_d1 Facts₀.h_S_

/-- The looked-up rows as the kernel program computes them: the table row where the range test holds, a row of a fill value elsewhere. -/
def takeFill (x : IVec S50000 32) (emb : FVec Ideal S50000x128 .f32) : FVec Ideal S50000x128 .f32 :=
  select (broadcastInDim S50000x128 ![0] Facts₀.bcast_S50000_S50000x128_0 (rowOk x))
    (Host.gather gather_S50000x128_S50000x1_S50000x128_1_0_n_n_0_1_1128 emb (idCol x))
    (broadcastInDim S50000x128 ![] Facts₀.bcast_S_S50000x128 (constant S_ .f32 0x7FC00000#32))

/-! ## The buffers when the lookup starts, and after it -/

/-- A stretch of operations none of which writes a buffer leaves that buffer as it was. -/
local macro "stretch_keeps" l:ident : tactic => `(tactic| (
  refine StableHlo.after_of_forall_not_mem _ _ (List.forall_iff_forall_mem.mp ?_)
  simp only [$l:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- The node ids are as launched when the lookup starts: no earlier operation writes them. -/
theorem W3_main_arg0 (c : Dev nD) : W3 (F := Ideal) m ρ c (Proc.devRef .tc main_arg0) = m ((c.tc : Thread nD τ).loc main_arg0) :=
  calc W3 (F := Ideal) m ρ c (Proc.devRef .tc main_arg0)
    _ = W2 (F := Ideal) m ρ c (Proc.devRef .tc main_arg0) := by stretch_keeps hostOps0_2
    _ = W1 (F := Ideal) m ρ c (Proc.devRef .tc main_arg0) := by stretch_keeps hostOps0_1
    _ = W0 (F := Ideal) m ρ c (Proc.devRef .tc main_arg0) := by stretch_keeps hostOps0
    _ = m ((c.tc : Thread nD τ).loc main_arg0) := rfl

/-- So is the embedding table. -/
theorem W3_main_arg2 (c : Dev nD) : W3 (F := Ideal) m ρ c (Proc.devRef .tc main_arg2) = m ((c.tc : Thread nD τ).loc main_arg2) :=
  calc W3 (F := Ideal) m ρ c (Proc.devRef .tc main_arg2)
    _ = W2 (F := Ideal) m ρ c (Proc.devRef .tc main_arg2) := by stretch_keeps hostOps0_2
    _ = W1 (F := Ideal) m ρ c (Proc.devRef .tc main_arg2) := by stretch_keeps hostOps0_1
    _ = W0 (F := Ideal) m ρ c (Proc.devRef .tc main_arg2) := by stretch_keeps hostOps0
    _ = m ((c.tc : Thread nD τ).loc main_arg2) := rfl

set_option maxHeartbeats 1000000 in
/-- The lookup's operations, run from any contents, leave the looked-up rows with the fill in the result buffer. -/
theorem after_take (X : Valuation τ sig (Elt Ideal)) :
    StableHlo.after (hostOps0_3 (F := Ideal)) X (Proc.devRef .tc main_v32)
      = takeFill (X (Proc.devRef .tc main_arg0)) (X (Proc.devRef .tc main_arg2)) := by
  after_results_simp
  simp only [TRef.ofBuf, TRef.toBuf, cast_eq]
  rfl

/-! ## In range, the fill is never taken -/

/-- A fold of one-bit conjunctions over ones, started at one, is one. -/
theorem foldl_andi_ones {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    refine foldl_andi_ones f l _ ?_ (fun n hn => hl n (List.mem_cons.2 (Or.inr hn)))
    rw [h, hl a (List.mem_cons.2 (Or.inl rfl))]; rfl

/-- A reduction by conjunction of an array of ones, started at one, is one at every index. -/
theorem reduce_andi_ones {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_ones x _ _ (hinit _) (fun i _ => hx i)

/-- A nonnegative id is not wrapped. -/
theorem wrap_word (w : BitVec 32) (h0 : 0 ≤ w.toInt) :
    Scalar.select (IntOp.cmpi .slt w 0#32) (IntOp.addi w 50000#32) w = w := by
  have hn : ¬ IntOp.cmpi .slt w 0#32 = 1#1 := by
    have z : (0#32 : BitVec 32).toInt = 0 := by decide
    rw [IntOp.cmpi_slt, z]; omega
  rw [eq_zero_of_ne_one hn, select_zero]

/-- An id in 0 … 49999 passes the range test. -/
theorem inb_word (w : BitVec 32) (h0 : 0 ≤ w.toInt) (h1 : w.toInt < 50000) :
    IntOp.andi (IntOp.cmpi .sge w 0#32) (IntOp.cmpi .sle w 49999#32) = 1#1 := by
  have z : (0#32 : BitVec 32).toInt = 0 := by decide
  have t : (49999#32 : BitVec 32).toInt = 49999 := by decide
  rw [IntOp.andi_eq_one, IntOp.cmpi_sge, IntOp.cmpi_sle, z, t]
  omega

/-- With every id in 0 … 49999, every entry of the one-column matrix passes the range test. -/
theorem inTable_ones (x : IVec S50000 32) (hx : ∀ i, 0 ≤ (x i).toInt ∧ (x i).toInt < 50000) (i : S50000x1.Idx) :
    inTable x i = 1#1 := by
  obtain ⟨i', e⟩ : ∃ i' : S50000.Idx, idCol x i = wrapK x i' := ⟨_, rfl⟩
  have hw : wrapK x i' = x i' := wrap_word _ (hx i').1
  show IntOp.andi (IntOp.cmpi .sge (idCol x i) 0#32) (IntOp.cmpi .sle (idCol x i) 49999#32) = 1#1
  rw [e, hw]
  exact inb_word _ (hx i').1 (hx i').2

/-- So every node passes. -/
theorem rowOk_ones (x : IVec S50000 32) (hx : ∀ i, 0 ≤ (x i).toInt ∧ (x i).toInt < 50000) (p : S50000.Idx) :
    rowOk x p = 1#1 :=
  reduce_andi_ones _ _ _ _ (fun _ => rfl) (inTable_ones x hx) p

/-- The lookup proper is the specification's: the same table rows at the same wrapped ids. -/
theorem gather_rows (x : IVec S50000 32) (emb : FVec Ideal S50000x128 .f32) :
    Host.gather gather_S50000x128_S50000x1_S50000x128_1_0_n_n_0_1_1128 emb (idCol x) = Cert.Gcn.embRows (F := Ideal) x emb := rfl

/-- With every id in 0 … 49999 the fill is never taken: the lookup with the fill is the plain lookup. -/
theorem takeFill_eq (x : IVec S50000 32) (emb : FVec Ideal S50000x128 .f32) (hx : ∀ i, 0 ≤ (x i).toInt ∧ (x i).toInt < 50000) :
    takeFill x emb = Cert.Gcn.embRows (F := Ideal) x emb := by
  funext j
  obtain ⟨p, e⟩ : ∃ p : S50000.Idx, broadcastInDim S50000x128 ![0] Facts₀.bcast_S50000_S50000x128_0 (rowOk x) j = rowOk x p := ⟨_, rfl⟩
  unfold takeFill
  rw [select_apply, e, rowOk_ones x hx p, select_one, gather_rows]

/-- Under the precondition the kernel program's looked-up rows are the specification's. -/
theorem W4_rows (hpre : Cert.Pre_KernelIdeal m) (c : Dev nD) :
    W4 (F := Ideal) m ρ c (Proc.devRef .tc main_v32)
      = Cert.Gcn.embRows (F := Ideal) (m ((c.tc : Thread nD τ).loc main_arg0)) (m ((c.tc : Thread nD τ).loc main_arg2)) :=
  calc W4 (F := Ideal) m ρ c (Proc.devRef .tc main_v32)
    _ = takeFill (W3 (F := Ideal) m ρ c (Proc.devRef .tc main_arg0)) (W3 (F := Ideal) m ρ c (Proc.devRef .tc main_arg2)) :=
          after_take (W3 (F := Ideal) m ρ c)
    _ = takeFill (m ((c.tc : Thread nD τ).loc main_arg0)) (m ((c.tc : Thread nD τ).loc main_arg2)) := by
          rw [W3_main_arg0 m ρ c, W3_main_arg2 m ρ c]
    _ = Cert.Gcn.embRows (F := Ideal) (m ((c.tc : Thread nD τ).loc main_arg0)) (m ((c.tc : Thread nD τ).loc main_arg2)) :=
          takeFill_eq _ _ (id_in_range m hpre c)

end Cert.Gcn.Take

end
-- ==== Proof.HostStages.lean ====
/-
  What the kernel program's host operations leave in the buffers the two kernel regions and the final stretch read,
  each as a named stage of the specification: the edge ids, the edge weights, the propagated tables, the joined
  weight, the bias row, and the two results as a column slice of a propagated table plus a bias.
-/
import proofs.«420012_j10187662426178_2_alg».proof.Proof.Gen.KernelIdeal.Frame
import proofs.«420012_j10187662426178_2_alg».proof.Proof.Spec
import Idealize.ShloMosaic.Lib.StableHlo.Run

noncomputable section

namespace Cert.Gcn.Host

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- The edge list as launched. -/
abbrev ei (c : Dev nD) : IVec S2x1600000 32 := m ((c.tc : Thread nD τ).loc main_arg1)

/-- A buffer that no operation of a stretch writes holds after the stretch what it held before it. -/
local macro "unwritten " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The first stretch: the edge ids, the in-degree and what the normalisation is selected from -/

theorem W1_src (c : Dev nD) : W1 m ρ c (Proc.devRef .tc main_v5) = Cert.Gcn.srcIds (ei m c) := by
  show StableHlo.after hostOps0 (W0 m ρ c) (Proc.devRef .tc main_v5) = _
  after_results
  unfold Cert.Gcn.srcIds
  rfl
theorem W1_dst (c : Dev nD) : W1 m ρ c (Proc.devRef .tc main_v6) = Cert.Gcn.dstIds (ei m c) := by
  show StableHlo.after hostOps0 (W0 m ρ c) (Proc.devRef .tc main_v6) = _
  after_results
  unfold Cert.Gcn.dstIds
  rfl
/-- Where the in-degree is positive. -/
theorem W1_pos (c : Dev nD) : W1 m ρ c (Proc.devRef .tc main_v12)
    = cmpf .ogt (Cert.Gcn.deg (F := F) (ei m c)) (broadcastInDim S50000 ![] bcast_S_S50000 (constant S_ .f32 0x00000000#32)) := by
  show StableHlo.after hostOps0 (W0 m ρ c) (Proc.devRef .tc main_v12) = _
  after_results
  unfold Cert.Gcn.deg Cert.Gcn.dstIds
  rfl
/-- The inverse square root of the in-degree raised to at least one. -/
theorem W1_rsqrt (c : Dev nD) : W1 m ρ c (Proc.devRef .tc main_v15)
    = Host.rsqrt (maximumf (Cert.Gcn.deg (F := F) (ei m c)) (broadcastInDim S50000 ![] bcast_S_S50000 (constant S_ .f32 0x3F800000#32))) := by
  show StableHlo.after hostOps0 (W0 m ρ c) (Proc.devRef .tc main_v15) = _
  after_results
  unfold Cert.Gcn.deg Cert.Gcn.dstIds
  rfl
/-- The scalar zero the selection falls back to. -/
theorem W1_zero (c : Dev nD) : W1 m ρ c (Proc.devRef .tc main_cst_3) = (constant S_ .f32 0x00000000#32 : FVec F S_ .f32) := by
  show StableHlo.after hostOps0 (W0 m ρ c) (Proc.devRef .tc main_cst_3) = _
  after_results

/-! ## The selection: `deg^(-1/2)` where the degree is positive, else zero -/

theorem W2_src (c : Dev nD) : W2 m ρ c (Proc.devRef .tc main_v5) = Cert.Gcn.srcIds (ei m c) := by
  rw [← W1_src m ρ c]; unwritten hostOps0_1
theorem W2_dst (c : Dev nD) : W2 m ρ c (Proc.devRef .tc main_v6) = Cert.Gcn.dstIds (ei m c) := by
  rw [← W1_dst m ρ c]; unwritten hostOps0_1
theorem W2_dis (c : Dev nD) : W2 m ρ c (Proc.devRef .tc main_v16) = Cert.Gcn.dis (F := F) (ei m c) := by
  show StableHlo.after hostOps0_1 (W1 m ρ c) (Proc.devRef .tc main_v16) = _
  generalize hV : W1 m ρ c = V
  after_results
  simp only [TRef.ofBuf, TRef.toBuf, cast_eq]
  subst hV
  rw [W1_pos, W1_rsqrt, W1_zero]
  unfold Cert.Gcn.dis
  rfl

/-! ## The edge weights: the normalisation gathered at both wrapped ends of an edge, multiplied -/

theorem W3_src (c : Dev nD) : W3 m ρ c (Proc.devRef .tc main_v5) = Cert.Gcn.srcIds (ei m c) := by
  rw [← W2_src m ρ c]; unwritten hostOps0_2
theorem W3_dst (c : Dev nD) : W3 m ρ c (Proc.devRef .tc main_v6) = Cert.Gcn.dstIds (ei m c) := by
  rw [← W2_dst m ρ c]; unwritten hostOps0_2
theorem W3_wgt (c : Dev nD) : W3 m ρ c (Proc.devRef .tc main_v31) = Cert.Gcn.wgt (F := F) (ei m c) := by
  show StableHlo.after hostOps0_2 (W2 m ρ c) (Proc.devRef .tc main_v31) = _
  generalize hV : W2 m ρ c = V
  after_results_simp
  subst hV
  rw [W2_src, W2_dst, W2_dis]
  unfold Cert.Gcn.wgt Cert.Gcn.wrap
  rfl

/-! ## At region 0's entry -/
theorem W4_src (c : Dev nD) : W4 m ρ c (Proc.devRef .tc main_v5) = Cert.Gcn.srcIds (ei m c) := by
  rw [← W3_src m ρ c]; unwritten hostOps0_3
theorem W4_dst (c : Dev nD) : W4 m ρ c (Proc.devRef .tc main_v6) = Cert.Gcn.dstIds (ei m c) := by
  rw [← W3_dst m ρ c]; unwritten hostOps0_3
theorem W4_wgt (c : Dev nD) : W4 m ρ c (Proc.devRef .tc main_v31) = Cert.Gcn.wgt (F := F) (ei m c) := by
  rw [← W3_wgt m ρ c]; unwritten hostOps0_3

/-- An argument that no host operation before region 0 writes is there as launched: one step back per stretch. -/
local macro "as_launched" : tactic =>
  `(tactic| (
      refine Eq.trans (by unwritten hostOps0_3) ?_
      refine Eq.trans (by unwritten hostOps0_2) ?_
      refine Eq.trans (by unwritten hostOps0_1) ?_
      refine Eq.trans (by unwritten hostOps0) ?_
      rfl))

theorem W4_W1 (c : Dev nD) : W4 m ρ c (Proc.devRef .tc main_arg3) = m ((c.tc : Thread nD τ).loc main_arg3) := by
  as_launched
/-- The two output weights, the hidden layer's bias and the two output biases likewise. -/
theorem W4_arg4 (c : Dev nD) : W4 m ρ c (Proc.devRef .tc main_arg4) = m ((c.tc : Thread nD τ).loc main_arg4) := by
  as_launched
theorem W4_arg5 (c : Dev nD) : W4 m ρ c (Proc.devRef .tc main_arg5) = m ((c.tc : Thread nD τ).loc main_arg5) := by
  as_launched
theorem W4_arg6 (c : Dev nD) : W4 m ρ c (Proc.devRef .tc main_arg6) = m ((c.tc : Thread nD τ).loc main_arg6) := by
  as_launched
theorem W4_arg7 (c : Dev nD) : W4 m ρ c (Proc.devRef .tc main_arg7) = m ((c.tc : Thread nD τ).loc main_arg7) := by
  as_launched
theorem W4_arg8 (c : Dev nD) : W4 m ρ c (Proc.devRef .tc main_arg8) = m ((c.tc : Thread nD τ).loc main_arg8) := by
  as_launched

/-! ## At region 0's exit: the region writes only its own arrays, so these buffers are as at its entry -/

theorem W5_src (c : Dev nD) : W5 m ρ c (Proc.devRef .tc main_v5) = Cert.Gcn.srcIds (ei m c) :=
  (W5_of_ne m ρ c main_v5 (by decide)).trans (W4_src m ρ c)
theorem W5_dst (c : Dev nD) : W5 m ρ c (Proc.devRef .tc main_v6) = Cert.Gcn.dstIds (ei m c) :=
  (W5_of_ne m ρ c main_v6 (by decide)).trans (W4_dst m ρ c)
theorem W5_wgt (c : Dev nD) : W5 m ρ c (Proc.devRef .tc main_v31) = Cert.Gcn.wgt (F := F) (ei m c) :=
  (W5_of_ne m ρ c main_v31 (by decide)).trans (W4_wgt m ρ c)
theorem W5_arg4 (c : Dev nD) : W5 m ρ c (Proc.devRef .tc main_arg4) = m ((c.tc : Thread nD τ).loc main_arg4) :=
  (W5_of_ne m ρ c main_arg4 (by decide)).trans (W4_arg4 m ρ c)
theorem W5_arg5 (c : Dev nD) : W5 m ρ c (Proc.devRef .tc main_arg5) = m ((c.tc : Thread nD τ).loc main_arg5) :=
  (W5_of_ne m ρ c main_arg5 (by decide)).trans (W4_arg5 m ρ c)
theorem W5_arg6 (c : Dev nD) : W5 m ρ c (Proc.devRef .tc main_arg6) = m ((c.tc : Thread nD τ).loc main_arg6) :=
  (W5_of_ne m ρ c main_arg6 (by decide)).trans (W4_arg6 m ρ c)
theorem W5_arg7 (c : Dev nD) : W5 m ρ c (Proc.devRef .tc main_arg7) = m ((c.tc : Thread nD τ).loc main_arg7) :=
  (W5_of_ne m ρ c main_arg7 (by decide)).trans (W4_arg7 m ρ c)
theorem W5_arg8 (c : Dev nD) : W5 m ρ c (Proc.devRef .tc main_arg8) = m ((c.tc : Thread nD τ).loc main_arg8) :=
  (W5_of_ne m ρ c main_arg8 (by decide)).trans (W4_arg8 m ρ c)

/-! ## At region 1's entry -/
theorem W6_agg (c : Dev nD) : W6 m ρ c (Proc.devRef .tc main_v46) = Cert.Gcn.prop128 (F := F) (ei m c) (W5 m ρ c (Proc.devRef .tc main_v33)) := by
  show StableHlo.after hostOps1 (W5 m ρ c) (Proc.devRef .tc main_v46) = _
  generalize hV : W5 m ρ c = V
  after_results_simp
  subst hV
  rw [W5_src, W5_dst, W5_wgt]
  unfold Cert.Gcn.prop128 Cert.Gcn.wrap
  rfl
theorem W6_wcat (c : Dev nD) : W6 m ρ c (Proc.devRef .tc main_v47)
    = concatenate S128x128 1 [⟨S128x64, m ((c.tc : Thread nD τ).loc main_arg5)⟩, ⟨S128x64, m ((c.tc : Thread nD τ).loc main_arg7)⟩] concatenates_S128x64_S128x64_S128x128_d1 := by
  show StableHlo.after hostOps1 (W5 m ρ c) (Proc.devRef .tc main_v47) = _
  generalize hV : W5 m ρ c = V
  after_results
  subst hV
  rw [W5_arg5, W5_arg7]
theorem W6_bias (c : Dev nD) : W6 m ρ c (Proc.devRef .tc main_v48) = shapeCast S1x128 (m ((c.tc : Thread nD τ).loc main_arg4)) shapeCasts_S128_S1x128 := by
  show StableHlo.after hostOps1 (W5 m ρ c) (Proc.devRef .tc main_v48) = _
  generalize hV : W5 m ρ c = V
  after_results_simp
  subst hV
  rw [W5_arg4]
  rfl

/-! ## At region 1's exit: what the final stretch reads besides the region's result -/

theorem W6_src (c : Dev nD) : W6 m ρ c (Proc.devRef .tc main_v5) = Cert.Gcn.srcIds (ei m c) := by
  rw [← W5_src m ρ c]; unwritten hostOps1
theorem W6_dst (c : Dev nD) : W6 m ρ c (Proc.devRef .tc main_v6) = Cert.Gcn.dstIds (ei m c) := by
  rw [← W5_dst m ρ c]; unwritten hostOps1
theorem W6_wgt (c : Dev nD) : W6 m ρ c (Proc.devRef .tc main_v31) = Cert.Gcn.wgt (F := F) (ei m c) := by
  rw [← W5_wgt m ρ c]; unwritten hostOps1
theorem W6_arg6 (c : Dev nD) : W6 m ρ c (Proc.devRef .tc main_arg6) = m ((c.tc : Thread nD τ).loc main_arg6) := by
  rw [← W5_arg6 m ρ c]; unwritten hostOps1
theorem W6_arg8 (c : Dev nD) : W6 m ρ c (Proc.devRef .tc main_arg8) = m ((c.tc : Thread nD τ).loc main_arg8) := by
  rw [← W5_arg8 m ρ c]; unwritten hostOps1

theorem W7_src (c : Dev nD) : W7 m ρ c (Proc.devRef .tc main_v5) = Cert.Gcn.srcIds (ei m c) :=
  (W7_of_ne m ρ c main_v5 (by decide)).trans (W6_src m ρ c)
theorem W7_dst (c : Dev nD) : W7 m ρ c (Proc.devRef .tc main_v6) = Cert.Gcn.dstIds (ei m c) :=
  (W7_of_ne m ρ c main_v6 (by decide)).trans (W6_dst m ρ c)
theorem W7_wgt (c : Dev nD) : W7 m ρ c (Proc.devRef .tc main_v31) = Cert.Gcn.wgt (F := F) (ei m c) :=
  (W7_of_ne m ρ c main_v31 (by decide)).trans (W6_wgt m ρ c)
theorem W7_arg6 (c : Dev nD) : W7 m ρ c (Proc.devRef .tc main_arg6) = m ((c.tc : Thread nD τ).loc main_arg6) :=
  (W7_of_ne m ρ c main_arg6 (by decide)).trans (W6_arg6 m ρ c)
theorem W7_arg8 (c : Dev nD) : W7 m ρ c (Proc.devRef .tc main_arg8) = m ((c.tc : Thread nD τ).loc main_arg8) :=
  (W7_of_ne m ρ c main_arg8 (by decide)).trans (W6_arg8 m ρ c)

/-! ## At the return -/
theorem W8_mu (c : Dev nD) : W8 m ρ c (Proc.devRef .tc main_v66)
    = addf (extractStridedSlice S50000x64 ![0, 0] (Cert.Gcn.prop128 (F := F) (ei m c) (W7 m ρ c (Proc.devRef .tc main_v49))) slices_S50000x128_S50000x64_0_0)
        (broadcastInDim S50000x64 ![0, 1] bcast_S1x64_S50000x64_0_1 (broadcastInDim S1x64 ![1] bcast_S64_S1x64_1 (m ((c.tc : Thread nD τ).loc main_arg6)))) := by
  show StableHlo.after hostOps2 (W7 m ρ c) (Proc.devRef .tc main_v66) = _
  generalize hV : W7 m ρ c = V
  after_results_simp
  subst hV
  rw [W7_src, W7_dst, W7_wgt, W7_arg6]
  unfold Cert.Gcn.prop128 Cert.Gcn.wrap
  rfl
theorem W8_logvar (c : Dev nD) : W8 m ρ c (Proc.devRef .tc main_v70)
    = addf (extractStridedSlice S50000x64 ![0, 64] (Cert.Gcn.prop128 (F := F) (ei m c) (W7 m ρ c (Proc.devRef .tc main_v49))) slices_S50000x128_S50000x64_0_64)
        (broadcastInDim S50000x64 ![0, 1] bcast_S1x64_S50000x64_0_1 (broadcastInDim S1x64 ![1] bcast_S64_S1x64_1 (m ((c.tc : Thread nD τ).loc main_arg8)))) := by
  show StableHlo.after hostOps2 (W7 m ρ c) (Proc.devRef .tc main_v70) = _
  generalize hV : W7 m ρ c = V
  after_results_simp
  subst hV
  rw [W7_src, W7_dst, W7_wgt, W7_arg8]
  unfold Cert.Gcn.prop128 Cert.Gcn.wrap
  rfl

end Cert.Gcn.Host

end
-- ==== Proof.RefStages.lean ====
/-
  The specification's stages are the reference program's operations, name for name; read at an entry, the hidden
  layer is max (agg1 (n, k) + b1 k) 0; and the reference's two results are the two heads.
-/
import proofs.«420012_j10187662426178_2_alg».proof.Proof.Spec
import proofs.«420012_j10187662426178_2_alg».proof.Proof.RefRead
import Idealize.ShloMosaic.Lib.ValueIdx
import Idealize.ShloMosaic.PureOps.Ideal.Laws

noncomputable section

namespace Cert.Gcn.Bridge

open Idealize.ShloMosaic Idealize.ShloMosaic.TcCoe Idealize.SL.Sem Idealize.ShloMosaic.ValueIdx

/-! ## The specification's stages are the reference's operations -/

section Stages
open Cert.ReferenceIdeal Cert.ReferenceIdeal.PRead
variable {F : FTy → Type} [FloatOps F]

theorem proj1_eq (x : IVec S50000 32) (emb : FVec F S50000x128 .f32) (W1 : FVec F S128x128 .f32) :
    Host.dotGeneral dot_S50000x128_S128x128_S50000x128_1_0_0_1_n_n none (Cert.Gcn.embRows (F := F) x emb) W1 = val_main_v39 (F := F) x emb W1 := rfl

theorem agg1_eq (x : IVec S50000 32) (ei : IVec S2x1600000 32) (emb : FVec F S50000x128 .f32) (W1 : FVec F S128x128 .f32) :
    Cert.Gcn.agg1 (F := F) x ei emb W1 = val_main_v52 (F := F) x ei emb W1 := rfl

theorem hidden_eq (x : IVec S50000 32) (ei : IVec S2x1600000 32) (emb : FVec F S50000x128 .f32) (W1 : FVec F S128x128 .f32) (b1 : FVec F S128 .f32) :
    Cert.Gcn.hidden (F := F) x ei emb W1 b1 = val_main_v56 (F := F) x ei emb W1 b1 := rfl

theorem projMu_eq (x : IVec S50000 32) (ei : IVec S2x1600000 32) (emb : FVec F S50000x128 .f32) (W1 : FVec F S128x128 .f32) (b1 : FVec F S128 .f32) (W : FVec F S128x64 .f32) :
    Host.dotGeneral dot_S50000x128_S128x64_S50000x64_1_0_0_1_n_n none (Cert.Gcn.hidden (F := F) x ei emb W1 b1) W = val_main_v57 (F := F) x ei emb W1 b1 W := rfl

theorem projLv_eq (x : IVec S50000 32) (ei : IVec S2x1600000 32) (emb : FVec F S50000x128 .f32) (W1 : FVec F S128x128 .f32) (b1 : FVec F S128 .f32) (W : FVec F S128x64 .f32) :
    Host.dotGeneral dot_S50000x128_S128x64_S50000x64_1_0_0_1_n_n none (Cert.Gcn.hidden (F := F) x ei emb W1 b1) W = val_main_v74 (F := F) x ei emb W1 b1 W := rfl

end Stages

section Hidden
open Cert.ReferenceIdeal Cert.ReferenceIdeal.PRead

/-- The hidden layer at an entry: the propagated projection plus the bias, cut off below at 0. -/
theorem hidden_apply (x : IVec S50000 32) (ei : IVec S2x1600000 32) (emb : FVec Ideal S50000x128 .f32) (W1 : FVec Ideal S128x128 .f32)
    (b1 : FVec Ideal S128 .f32) (n : Fin 50000) (k : Fin 128) :
    Cert.Gcn.hidden (F := Ideal) x ei emb W1 b1 (ix2 n k) = max (Cert.Gcn.agg1 (F := Ideal) x ei emb W1 (ix2 n k) + b1 (ix1 k)) 0 := by
  rw [hidden_eq, agg1_eq, val_main_v56_apply, val_main_v55_apply, val_main_v54_apply, val_main_v53_apply, val_main_call1_v0_apply,
    val_main_call1_cst_apply]
  have e : idx_main_v53 (idx_main_v54 (ix2 n k)) = ix1 k := funext fun a => Fin.ext (by match a with | ⟨0, _⟩ => rfl)
  rw [e, Ideal.maximumf_def, Ideal.addf_def, Ideal.ofBits_def, Ideal.ofBits_zero_f32]

end Hidden

/-! ## The reference's results are the two heads -/

section Reference
open Cert.ReferenceIdeal Cert.ReferenceIdeal.PValue
variable {F : FTy → Type} [FloatOps F]

theorem ref_mu (m : (ℓ : Loc nD τ sig) → Buf (Elt F) ℓ) (c : Dev nD) :
    res_main_v73 (F := F) m c = Cert.Gcn.head (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  unfold res_main_v73
  rfl

theorem ref_logvar (m : (ℓ : Loc nD τ sig) → Buf (Elt F) ℓ) (c : Dev nD) :
    res_main_v90 (F := F) m c = Cert.Gcn.head (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg7)) (m ((c.tc : Thread nD τ).loc main_arg8)) := by
  unfold res_main_v90
  rfl

end Reference

end Cert.Gcn.Bridge

end
-- ==== Proof.Bridge.lean ====
/-
  The kernel program computes the encoder of the specification.

  Layer 1. The kernel program looks the embedding rows up (under the precondition: exactly `embRows`), multiplies
  them by W1 in its first kernel region — row block by row block, which is the whole product
  ∑ k, rows (n, k) · W1 (k, j) entry by entry — and propagates: `agg1`.
  Layer 2. Its second kernel region computes, entry by entry, ∑ k, max (agg1 (n, k) + b1 k) 0 · [Wmu | Wlv] (k, j):
  the hidden layer times the two head weights side by side. Columns 0 … 63 of that product are hidden · Wmu, columns
  64 … 127 are hidden · Wlv. Propagation acts on each column separately, so a column slice of the propagated table
  is the propagated column slice: the kernel program's two results are the two heads.
  No law beyond re-indexing a finite sum is used, so finiteness of the inputs is not needed here.
-/
import proofs.«420012_j10187662426178_2_alg».proof.Defs
import proofs.«420012_j10187662426178_2_alg».proof.Proof.Gen.KernelIdeal.Frame
import proofs.«420012_j10187662426178_2_alg».proof.Proof.Gen.Pre_finite_inputs
import proofs.«420012_j10187662426178_2_alg».proof.Proof.Spec
import proofs.«420012_j10187662426178_2_alg».proof.Proof.PropCols
import proofs.«420012_j10187662426178_2_alg».proof.Proof.Region0
import proofs.«420012_j10187662426178_2_alg».proof.Proof.Region1
import proofs.«420012_j10187662426178_2_alg».proof.Proof.TakeRows
import proofs.«420012_j10187662426178_2_alg».proof.Proof.HostStages
import proofs.«420012_j10187662426178_2_alg».proof.Proof.RefStages
import Idealize.ShloMosaic.Lib.ValueIdx
import Idealize.ShloMosaic.Lib.ValueLayout
import Idealize.ShloMosaic.Lib.Pipeline.Value
import Idealize.ShloMosaic.PureOps.Ideal.Laws

noncomputable section

namespace Cert.Gcn.Bridge

open Idealize.ShloMosaic Idealize.ShloMosaic.TcCoe Idealize.SL.Sem Idealize.ShloMosaic.ValueIdx

/-! ## The kernel program's buffers, stage by stage -/

section Kernel
open Cert.KernelIdeal Cert.KernelIdeal.Gen

variable (m : (ℓ : Loc nD τ sig) → Buf (Elt Ideal) ℓ) (ρ : Dev nD → PrngReg)

/-- The arguments as launched, by what they are. -/
abbrev aX (c : Dev nD) : IVec S50000 32 := m ((c.tc : Thread nD τ).loc main_arg0)
abbrev aEi (c : Dev nD) : IVec S2x1600000 32 := m ((c.tc : Thread nD τ).loc main_arg1)
abbrev aEmb (c : Dev nD) : FVec Ideal S50000x128 .f32 := m ((c.tc : Thread nD τ).loc main_arg2)
abbrev aW1 (c : Dev nD) : FVec Ideal S128x128 .f32 := m ((c.tc : Thread nD τ).loc main_arg3)
abbrev aB1 (c : Dev nD) : FVec Ideal S128 .f32 := m ((c.tc : Thread nD τ).loc main_arg4)
abbrev aWmu (c : Dev nD) : FVec Ideal S128x64 .f32 := m ((c.tc : Thread nD τ).loc main_arg5)
abbrev aBmu (c : Dev nD) : FVec Ideal S64 .f32 := m ((c.tc : Thread nD τ).loc main_arg6)
abbrev aWlv (c : Dev nD) : FVec Ideal S128x64 .f32 := m ((c.tc : Thread nD τ).loc main_arg7)
abbrev aBlv (c : Dev nD) : FVec Ideal S64 .f32 := m ((c.tc : Thread nD τ).loc main_arg8)

/-- Region 0 leaves the projected embedding rows: block by block it computed the whole product. -/
theorem W5_proj (hpre : Cert.Pre_KernelIdeal m) (c : Dev nD) :
    W5 m ρ c (Proc.devRef .tc main_v33)
      = Host.dotGeneral Cert.ReferenceIdeal.dot_S50000x128_S128x128_S50000x128_1_0_0_1_n_n none
          (Cert.Gcn.embRows (F := Ideal) (aX m c) (aEmb m c)) (aW1 m c) := by
  have h5 : W5 m ρ c (Proc.devRef .tc main_v33) = (dat0 (V4 m ρ) c).arrAt 2 cfg0.N := W5_arr m ρ c 2
  rw [h5]
  funext i
  obtain ⟨n, j, rfl⟩ : ∃ (n : Fin 50000) (j : Fin 128), i = ix2 n j := ⟨i 0, i 1, eq_ix2 i⟩
  rw [proj1_eq, Cert.ReferenceIdeal.PRead.val_main_v39_apply]
  refine (Region0.region0_apply (V4 m ρ) c n j).trans (Finset.sum_congr rfl fun k _ => ?_)
  have e1 : Region0.lhsArr (V4 m ρ) c = Cert.Gcn.embRows (F := Ideal) (aX m c) (aEmb m c) := Take.W4_rows m ρ hpre c
  have e2 : Region0.rhsArr (V4 m ρ) c = aW1 m c := Host.W4_W1 m ρ c
  have el : Cert.ReferenceIdeal.PRead.lidx_main_v39 (ix2 n j) k = ix2 n k :=
    funext fun a => Fin.ext (by match a with | ⟨0, _⟩ => rfl | ⟨1, _⟩ => rfl)
  have er : Cert.ReferenceIdeal.PRead.ridx_main_v39 (ix2 n j) k = ix2 k j :=
    funext fun a => Fin.ext (by match a with | ⟨0, _⟩ => rfl | ⟨1, _⟩ => rfl)
  rw [e1, e2, el, er]
  rfl

/-- Region 1 leaves, entry by entry, the hidden layer times the two head weights side by side. -/
theorem W7_entry (hpre : Cert.Pre_KernelIdeal m) (c : Dev nD) (n : Fin 50000) (j : Fin 128) :
    (W7 m ρ c (Proc.devRef .tc main_v49) : S50000x128.Idx → EReal) (ix2 n j)
      = ∑ k : Fin 128, Cert.Gcn.hidden (F := Ideal) (aX m c) (aEi m c) (aEmb m c) (aW1 m c) (aB1 m c) (ix2 n k)
          * (if h : j.val < 64 then aWmu m c (ix2 k ⟨j.val, h⟩) else aWlv m c (ix2 k ⟨j.val - 64, by omega⟩)) := by
  have h7 : W7 m ρ c (Proc.devRef .tc main_v49) = (dat1 (V6 m ρ) c).arrAt 3 cfg1.N := W7_arr m ρ c 3
  rw [h7]
  refine (Region1.region1_apply (V6 m ρ) c n j).trans (Finset.sum_congr rfl fun k _ => ?_)
  have ea : Region1.aggArr (V6 m ρ) c = Cert.Gcn.agg1 (F := Ideal) (aX m c) (aEi m c) (aEmb m c) (aW1 m c) := by
    show W6 m ρ c (Proc.devRef .tc main_v46) = _
    rw [Host.W6_agg, W5_proj m ρ hpre c]
    rfl
  have eb : Region1.biasArr (V6 m ρ) c (ix2 0 k) = aB1 m c (ix1 k) := by
    show W6 m ρ c (Proc.devRef .tc main_v48) (ix2 0 k) = _
    rw [Host.W6_bias]
    exact shapeCast_a_1a_apply _ _ 0 k
  have ew : Region1.wArr (V6 m ρ) c (ix2 k j)
      = if h : j.val < 64 then aWmu m c (ix2 k ⟨j.val, h⟩) else aWlv m c (ix2 k ⟨j.val - 64, by omega⟩) := by
    show W6 m ρ c (Proc.devRef .tc main_v47) (ix2 k j) = _
    rw [Host.W6_wcat]
    by_cases h : j.val < 64
    · rw [dif_pos h]
      exact concatenate_pair_apply_left (t := S128x128) (s₁ := S128x64) (s₂ := S128x64) 1 _ _ _ (ix2 k j) rfl
        (ix2 k (⟨j.val, h⟩ : Fin 64)) (fun b => by match b with | ⟨0, _⟩ => rfl | ⟨1, _⟩ => rfl)
    · rw [dif_neg h]
      exact concatenate_pair_apply_right (t := S128x128) (s₁ := S128x64) (s₂ := S128x64) 1 _ _ _ (ix2 k j) rfl rfl
        (ix2 k (⟨j.val - 64, by omega⟩ : Fin 64))
        (fun b hb => by match b with | ⟨0, _⟩ => rfl | ⟨1, _⟩ => exact absurd rfl hb)
        (by show (j.val - 64) + 64 = j.val; omega)
  rw [ea, eb, ew, hidden_apply]

/-- The first result is the `mu` head. -/
theorem kernel_mu (hpre : Cert.Pre_KernelIdeal m) (c : Dev nD) :
    W8 m ρ c (Proc.devRef .tc main_v66)
      = Cert.Gcn.head (F := Ideal) (aX m c) (aEi m c) (aEmb m c) (aW1 m c) (aB1 m c) (aWmu m c) (aBmu m c) := by
  rw [Host.W8_mu]
  unfold Cert.Gcn.head
  refine congrArg₂ (addf (F := Ideal)) ?_ rfl
  refine Cert.Gcn.prop_cols (Host.ei m c) (W7 m ρ c (Proc.devRef .tc main_v49)) _ 0 (by norm_num) _ (fun n j => ?_)
  rw [projMu_eq, Cert.ReferenceIdeal.PRead.val_main_v57_apply, ← hidden_eq, W7_entry m ρ hpre c n ⟨0 + j.val, by omega⟩]
  refine Finset.sum_congr rfl fun k _ => ?_
  have el : Cert.ReferenceIdeal.PRead.lidx_main_v57 (ix2 n j) k = ix2 n k :=
    funext fun a => Fin.ext (by match a with | ⟨0, _⟩ => rfl | ⟨1, _⟩ => rfl)
  have er : Cert.ReferenceIdeal.PRead.ridx_main_v57 (ix2 n j) k = ix2 k j :=
    funext fun a => Fin.ext (by match a with | ⟨0, _⟩ => rfl | ⟨1, _⟩ => rfl)
  rw [el, er]
  rw [dif_pos (show (0 + j.val) < 64 by omega)]
  exact congrArg (fun q : Fin 64 => _ * aWmu m c (ix2 k q)) (Fin.ext (Nat.zero_add j.val).symm)

/-- The second result is the `logvar` head. -/
theorem kernel_logvar (hpre : Cert.Pre_KernelIdeal m) (c : Dev nD) :
    W8 m ρ c (Proc.devRef .tc main_v70)
      = Cert.Gcn.head (F := Ideal) (aX m c) (aEi m c) (aEmb m c) (aW1 m c) (aB1 m c) (aWlv m c) (aBlv m c) := by
  rw [Host.W8_logvar]
  unfold Cert.Gcn.head
  refine congrArg₂ (addf (F := Ideal)) ?_ rfl
  refine Cert.Gcn.prop_cols (Host.ei m c) (W7 m ρ c (Proc.devRef .tc main_v49)) _ 64 (by norm_num) _ (fun n j => ?_)
  rw [projLv_eq, Cert.ReferenceIdeal.PRead.val_main_v74_apply, ← hidden_eq, W7_entry m ρ hpre c n ⟨64 + j.val, by omega⟩]
  refine Finset.sum_congr rfl fun k _ => ?_
  have el : Cert.ReferenceIdeal.PRead.lidx_main_v74 (ix2 n j) k = ix2 n k :=
    funext fun a => Fin.ext (by match a with | ⟨0, _⟩ => rfl | ⟨1, _⟩ => rfl)
  have er : Cert.ReferenceIdeal.PRead.ridx_main_v74 (ix2 n j) k = ix2 k j :=
    funext fun a => Fin.ext (by match a with | ⟨0, _⟩ => rfl | ⟨1, _⟩ => rfl)
  rw [el, er]
  rw [dif_neg (show ¬ (64 + j.val) < 64 by omega)]
  exact congrArg (fun q : Fin 64 => _ * aWlv m c (ix2 k q)) (Fin.ext (Nat.add_sub_cancel_left (n := 64) (m := j.val)).symm)

end Kernel

end Cert.Gcn.Bridge

end
-- ==== Proof.lean ====
/-
  The certificate of a two-layer graph-convolution encoder (50000 nodes, 128 features, 1650000 edges with the
  self-loops) against its plain reference, over the extended reals.

  Both programs compute, for node ids x, edge list ei, embedding table emb and weights W1, b1, Wmu, bmu, Wlv, blv,
      h1 = relu (prop (emb[x] · W1) + b1),   mu = prop (h1 · Wmu) + bmu,   logvar = prop (h1 · Wlv) + blv,
  where `prop H (n, j) = ∑ over edges e into n of H (source e, j) · weight e` (Proof/Spec.lean). The kernel program
  forms the two matrix products in kernel regions, row block by row block, the second one against the two head
  weights joined side by side, and slices the two heads' columns out after the propagation; the reference forms
  each product whole and each head separately. Equal results follow from three facts, none of which needs the
  inputs finite: a block-wise product is the product (Proof/Region0.lean, Region1.lean); columns 0 … 63 and
  64 … 127 of a product against [Wmu | Wlv] are the products against Wmu and against Wlv; and propagation acts on each
  column separately (Proof/PropCols.lean). The precondition's one integer conjunct, every node id a row number of
  the embedding table, is what makes the kernel program's row lookup (which fills rows of out-of-range ids with a
  fill value) the reference's plain lookup (Proof/TakeRows.lean).

  The three frames: the two kernel programs' are the generated frame certificates; the reference's is its run with the
  results dropped. The idealization rewrote nothing, so there is nothing to preserve.
-/
import proofs.«420012_j10187662426178_2_alg».proof.Defs
import proofs.«420012_j10187662426178_2_alg».proof.Proof.Gen.Kernel
import proofs.«420012_j10187662426178_2_alg».proof.Proof.Gen.Kernel.Skeleton
import proofs.«420012_j10187662426178_2_alg».proof.Proof.Gen.Kernel.Launch
import proofs.«420012_j10187662426178_2_alg».proof.Proof.Gen.Kernel.Points
import proofs.«420012_j10187662426178_2_alg».proof.Proof.Gen.Kernel.Frame
import proofs.«420012_j10187662426178_2_alg».proof.Proof.Gen.KernelIdeal
import proofs.«420012_j10187662426178_2_alg».proof.Proof.Gen.KernelIdeal.Skeleton
import proofs.«420012_j10187662426178_2_alg».proof.Proof.Gen.KernelIdeal.Launch
import proofs.«420012_j10187662426178_2_alg».proof.Proof.Gen.KernelIdeal.Points
import proofs.«420012_j10187662426178_2_alg».proof.Proof.Gen.KernelIdeal.Frame
import proofs.«420012_j10187662426178_2_alg».proof.Proof.Gen.ReferenceIdeal
import proofs.«420012_j10187662426178_2_alg».proof.Proof.Gen.Pre_finite_inputs
import proofs.«420012_j10187662426178_2_alg».proof.Proof.KernelRun
import proofs.«420012_j10187662426178_2_alg».proof.Proof.RefRun
import proofs.«420012_j10187662426178_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run, the two results dropped. -/
theorem frame_ri : Cert.frame_ReferenceIdeal := fun m ρ _ =>
  (θ_run Cert.ReferenceIdeal.defs _ _).mono (fun _ h c => (h c).2.2) (Cert.ReferenceIdeal.PValue.run (F := Ideal) m ρ)

/-- Both programs end with the two heads of the encoder at the (agreeing) arguments. -/
theorem algebraic : Cert.algebraic_KernelIdeal_ReferenceIdeal := by
  intro m ρ m' ρ' hpre hagree
  refine ⟨fun c => Cert.Gcn.head (F := Ideal) (Cert.Gcn.Bridge.aX m c) (Cert.Gcn.Bridge.aEi m c) (Cert.Gcn.Bridge.aEmb m c) (Cert.Gcn.Bridge.aW1 m c)
      (Cert.Gcn.Bridge.aB1 m c) (Cert.Gcn.Bridge.aWmu m c) (Cert.Gcn.Bridge.aBmu m c),
    fun c => Cert.Gcn.head (F := Ideal) (Cert.Gcn.Bridge.aX m c) (Cert.Gcn.Bridge.aEi m c) (Cert.Gcn.Bridge.aEmb m c) (Cert.Gcn.Bridge.aW1 m c)
      (Cert.Gcn.Bridge.aB1 m c) (Cert.Gcn.Bridge.aWlv m c) (Cert.Gcn.Bridge.aBlv m c), ?_, ?_⟩
  · exact (θ_run Cert.KernelIdeal.defs _ _).mono
      (fun _ h c => ⟨(h c).1.trans (Cert.Gcn.Bridge.kernel_mu m ρ hpre c), (h c).2.1.trans (Cert.Gcn.Bridge.kernel_logvar m ρ hpre c), (h c).2.2⟩)
      (Cert.KernelIdeal.PRun.run_named (F := Ideal) m ρ)
  · refine (θ_run Cert.ReferenceIdeal.defs _ _).mono (fun _ h c => ⟨(h c).1.trans ?_, (h c).2.1.trans ?_, (h c).2.2⟩)
      (Cert.ReferenceIdeal.PValue.run (F := Ideal) m' ρ')
    · rw [Cert.Gcn.Bridge.ref_mu, (hagree c).1, (hagree c).2.1, (hagree c).2.2.1, (hagree c).2.2.2.1, (hagree c).2.2.2.2.1,
        (hagree c).2.2.2.2.2.1, (hagree c).2.2.2.2.2.2.1]
    · rw [Cert.Gcn.Bridge.ref_logvar, (hagree c).1, (hagree c).2.1, (hagree c).2.2.1, (hagree c).2.2.2.1, (hagree c).2.2.2.2.1,
        (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
